-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000 : Shape := ⟨1, ![320000]⟩
abbrev S320000x3x9 : Shape := ⟨3, ![320000, 3, 9]⟩
abbrev S320000x32 : Shape := ⟨2, ![320000, 32]⟩
abbrev S10000x16x3 : Shape := ⟨3, ![10000, 16, 3]⟩
abbrev S32x128 : Shape := ⟨2, ![32, 128]⟩
abbrev S128 : Shape := ⟨1, ![128]⟩
abbrev S128x768 : Shape := ⟨2, ![128, 768]⟩
abbrev S768 : Shape := ⟨1, ![768]⟩
abbrev S_ : Shape := ⟨0, ![]⟩

class Facts : Prop where
  bcast_S_S320000x3x9 : S_.BroadcastsInDim S320000x3x9 (![] : Fin 0 → Fin S320000x3x9.rank)
  reducesTo_S320000x3x9_S_d0_1_2 : S320000x3x9.ReducesTo [0, 1, 2] S_
  h_S_ : 0 < S_.numel
  bcast_S_S320000x32 : S_.BroadcastsInDim S320000x32 (![] : Fin 0 → Fin S320000x32.rank)
  reducesTo_S320000x32_S_d0_1 : S320000x32.ReducesTo [0, 1] S_
  bcast_S_S10000x16x3 : S_.BroadcastsInDim S10000x16x3 (![] : Fin 0 → Fin S10000x16x3.rank)
  reducesTo_S10000x16x3_S_d0_1_2 : S10000x16x3.ReducesTo [0, 1, 2] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x768 : S_.BroadcastsInDim S128x768 (![] : Fin 0 → Fin S128x768.rank)
  reducesTo_S128x768_S_d0_1 : S128x768.ReducesTo [0, 1] S_
  bcast_S_S768 : S_.BroadcastsInDim S768 (![] : Fin 0 → Fin S768.rank)
  reducesTo_S768_S_d0 : S768.ReducesTo [0] S_
  bcast_S_S320000 : S_.BroadcastsInDim S320000 (![] : Fin 0 → Fin S320000.rank)
  reducesTo_S320000_S_d0 : S320000.ReducesTo [0] S_

variable [Facts]

def fn_part2 {F : FTy → Type} [FloatOps F] (main_arg0 : IVec S320000 32) (main_v33 : IVec S_ 1) : IVec S_ 1 :=
  let main_c_12 : IVec S_ 32 := constantI S_ 32 4294957296#32
  let main_v34 : IVec S320000 32 := broadcastInDim S320000 ![] bcast_S_S320000 main_c_12
  let main_v35 : IVec S320000 1 := cmpi .sge main_arg0 main_v34
  let main_c_13 : IVec S_ 32 := constantI S_ 32 10000#32
  let main_v36 : IVec S320000 32 := broadcastInDim S320000 ![] bcast_S_S320000 main_c_13
  let main_v37 : IVec S320000 1 := cmpi .slt main_arg0 main_v36
  let main_v38 : IVec S320000 1 := andi main_v35 main_v37
  let main_c_14 : IVec S_ 1 := constantI S_ 1 1#1
  let main_v39 : IVec S_ 1 := (fun x v => Host.reduce IntOp.andi x v reducesTo_S320000_S_d0 h_S_) main_v38 main_c_14
  let main_v40 : IVec S_ 1 := andi main_v33 main_v39
  main_v40

def fn_part1 {F : FTy → Type} [FloatOps F] (main_arg0 : IVec S320000 32) (main_arg5 : FVec F S128 .f32) (main_arg6 : FVec F S128x768 .f32) (main_arg7 : FVec F S768 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x768 .f32 := Host.absf main_arg6
  let main_cst_8 : FVec F S_ .f32 := constant S_ .f32 0x7F800000#32
  let main_v25 : FVec F S128x768 .f32 := broadcastInDim S128x768 ![] bcast_S_S128x768 main_cst_8
  let main_v26 : IVec S128x768 1 := cmpf .olt main_v24 main_v25
  let main_c_9 : IVec S_ 1 := constantI S_ 1 1#1
  let main_v27 : IVec S_ 1 := (fun x v => Host.reduce IntOp.andi x v reducesTo_S128x768_S_d0_1 h_S_) main_v26 main_c_9
  let main_v28 : IVec S_ 1 := andi main_v23 main_v27
  let main_v29 : FVec F S768 .f32 := Host.absf main_arg7
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg0 main_v33

def fn {F : FTy → Type} [FloatOps F] (main_arg0 : IVec S320000 32) (main_arg1 : FVec F S320000x3x9 .f32) (main_arg2 : FVec F S320000x32 .f32) (main_arg3 : FVec F S10000x16x3 .f32) (main_arg4 : FVec F S32x128 .f32) (main_arg5 : FVec F S128 .f32) (main_arg6 : FVec F S128x768 .f32) (main_arg7 : FVec F S768 .f32) : IVec S_ 1 :=
  let main_v0 : FVec F S320000x3x9 .f32 := Host.absf main_arg1
  let main_cst : FVec F S_ .f32 := constant S_ .f32 0x7F800000#32
  let main_v1 : FVec F S320000x3x9 .f32 := broadcastInDim S320000x3x9 ![] bcast_S_S320000x3x9 main_cst
  let main_v2 : IVec S320000x3x9 1 := cmpf .olt main_v0 main_v1
  let main_c : IVec S_ 1 := constantI S_ 1 1#1
  let main_v3 : IVec S_ 1 := (fun x v => Host.reduce IntOp.andi x v reducesTo_S320000x3x9_S_d0_1_2 h_S_) main_v2 main_c
  let main_v4 : FVec F S320000x32 .f32 := Host.absf main_arg2
  let main_cst_0 : FVec F S_ .f32 := constant S_ .f32 0x7F800000#32
  let main_v5 : FVec F S320000x32 .f32 := broadcastInDim S320000x32 ![] bcast_S_S320000x32 main_cst_0
  let main_v6 : IVec S320000x32 1 := cmpf .olt main_v4 main_v5
  let main_c_1 : IVec S_ 1 := constantI S_ 1 1#1
  let main_v7 : IVec S_ 1 := (fun x v => Host.reduce IntOp.andi x v reducesTo_S320000x32_S_d0_1 h_S_) main_v6 main_c_1
  let main_v8 : IVec S_ 1 := andi main_v3 main_v7
  let main_v9 : FVec F S10000x16x3 .f32 := Host.absf main_arg3
  let main_cst_2 : FVec F S_ .f32 := constant S_ .f32 0x7F800000#32
  let main_v10 : FVec F S10000x16x3 .f32 := broadcastInDim S10000x16x3 ![] bcast_S_S10000x16x3 main_cst_2
  let main_v11 : IVec S10000x16x3 1 := cmpf .olt main_v9 main_v10
  let main_c_3 : IVec S_ 1 := constantI S_ 1 1#1
  let main_v12 : IVec S_ 1 := (fun x v => Host.reduce IntOp.andi x v reducesTo_S10000x16x3_S_d0_1_2 h_S_) main_v11 main_c_3
  let main_v13 : IVec S_ 1 := andi main_v8 main_v12
  let main_v14 : FVec F S32x128 .f32 := Host.absf main_arg4
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg0 main_arg5 main_arg6 main_arg7 main_v13 main_v16
-- ==== Kernel.lean ====
abbrev S320000 : Shape := ⟨1, ![320000]⟩
abbrev S320000x3x9 : Shape := ⟨3, ![320000, 3, 9]⟩
abbrev S320000x32 : Shape := ⟨2, ![320000, 32]⟩
abbrev S10000x16x3 : Shape := ⟨3, ![10000, 16, 3]⟩
abbrev S32x128 : Shape := ⟨2, ![32, 128]⟩
abbrev S128 : Shape := ⟨1, ![128]⟩
abbrev S128x768 : Shape := ⟨2, ![128, 768]⟩
abbrev S768 : Shape := ⟨1, ![768]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x16x3 : Shape := ⟨3, ![320000, 16, 3]⟩
abbrev S128x16x16x3 : Shape := ⟨4, ![128, 16, 16, 3]⟩
abbrev S128x16x3x16 : Shape := ⟨4, ![128, 16, 3, 16]⟩
abbrev S16x16x3 : Shape := ⟨3, ![16, 16, 3]⟩
abbrev S16x3x16 : Shape := ⟨3, ![16, 3, 16]⟩
abbrev S400x32 : Shape := ⟨2, ![400, 32]⟩
abbrev S400x16x3 : Shape := ⟨3, ![400, 16, 3]⟩
abbrev S400x3x9 : Shape := ⟨3, ![400, 3, 9]⟩
abbrev S400x128 : Shape := ⟨2, ![400, 128]⟩
abbrev S1x128 : Shape := ⟨2, ![1, 128]⟩
abbrev S400x768 : Shape := ⟨2, ![400, 768]⟩
abbrev S1x768 : Shape := ⟨2, ![1, 768]⟩
abbrev S400x16x48 : Shape := ⟨3, ![400, 16, 48]⟩
abbrev S400x16x9 : Shape := ⟨3, ![400, 16, 9]⟩
abbrev S400x48x3 : Shape := ⟨3, ![400, 48, 3]⟩

abbrev nBuf : Space → Nat
  | .hbm => 40
  | .vmem => 12
  | .smem => 0
  | _ => 0

abbrev bufTy : (tb : Table) → Fin (tcTables nBuf tb) → BufTy
  | .hbm, ⟨0, _⟩ => ⟨S320000, .i32⟩
  | .hbm, ⟨1, _⟩ => ⟨S320000x3x9, .f32⟩
  | .hbm, ⟨2, _⟩ => ⟨S320000x32, .f32⟩
  | .hbm, ⟨3, _⟩ => ⟨S10000x16x3, .f32⟩
  | .hbm, ⟨4, _⟩ => ⟨S32x128, .f32⟩
  | .hbm, ⟨5, _⟩ => ⟨S128, .f32⟩
  | .hbm, ⟨6, _⟩ => ⟨S128x768, .f32⟩
  | .hbm, ⟨7, _⟩ => ⟨S768, .f32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S1, .i32⟩
  | .hbm, ⟨17, _⟩ => ⟨S_, .i32⟩
  | .hbm, ⟨18, _⟩ => ⟨S320000x1, .i32⟩
  | .hbm, ⟨19, _⟩ => ⟨S320000x1, .i1⟩
  | .hbm, ⟨20, _⟩ => ⟨S1x1, .i32⟩
  | .hbm, ⟨21, _⟩ => ⟨S320000x1, .i32⟩
  | .hbm, ⟨22, _⟩ => ⟨S320000x1, .i1⟩
  | .hbm, ⟨23, _⟩ => ⟨S320000x1, .i1⟩
  | .hbm, ⟨24, _⟩ => ⟨S_, .i1⟩
  | .hbm, ⟨25, _⟩ => ⟨S320000, .i1⟩
  | .hbm, ⟨26, _⟩ => ⟨S320000x16x3, .f32⟩
  | .hbm, ⟨27, _⟩ => ⟨S320000x16x3, .i1⟩
  | .hbm, ⟨28, _⟩ => ⟨S_, .f32⟩
  | .hbm, ⟨29, _⟩ => ⟨S320000x16x3, .f32⟩
  | .hbm, ⟨30, _⟩ => ⟨S320000x16x3, .f32⟩
  | .hbm, ⟨31, _⟩ => ⟨S32x128, .bf16⟩
  | .hbm, ⟨32, _⟩ => ⟨S128x16x16x3, .f32⟩
  | .hbm, ⟨33, _⟩ => ⟨S128x16x3x16, .f32⟩
  | .hbm, ⟨34, _⟩ => ⟨S128x768, .f32⟩
  | .hbm, ⟨35, _⟩ => ⟨S16x16x3, .f32⟩
  | .hbm, ⟨36, _⟩ => ⟨S16x3x16, .f32⟩
  | .hbm, ⟨37, _⟩ => ⟨S768, .f32⟩
  | .hbm, ⟨38, _⟩ => ⟨S128x768, .bf16⟩
  | .hbm, ⟨39, _⟩ => ⟨S320000x16x3, .f32⟩
  | .local _ .vmem, ⟨0, _⟩ => ⟨S400x32, .f32⟩
  | .local _ .vmem, ⟨1, _⟩ => ⟨S400x32, .f32⟩
  | .local _ .vmem, ⟨2, _⟩ => ⟨S400x16x3, .f32⟩
  | .local _ .vmem, ⟨3, _⟩ => ⟨S400x16x3, .f32⟩
  | .local _ .vmem, ⟨4, _⟩ => ⟨S400x3x9, .f32⟩
  | .local _ .vmem, ⟨5, _⟩ => ⟨S400x3x9, .f32⟩
  | .local _ .vmem, ⟨6, _⟩ => ⟨S32x128, .bf16⟩
  | .local _ .vmem, ⟨7, _⟩ => ⟨S128, .f32⟩
  | .local _ .vmem, ⟨8, _⟩ => ⟨S128x768, .bf16⟩
  | .local _ .vmem, ⟨9, _⟩ => ⟨S768, .f32⟩
  | .local _ .vmem, ⟨10, _⟩ => ⟨S400x16x3, .f32⟩
  | .local _ .vmem, ⟨11, _⟩ => ⟨S400x16x3, .f32⟩
  | _, _ => ⟨S320000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x3x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x16x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x16x3_0 : S320000.BroadcastsInDim S320000x16x3 (![0] : Fin 1 → Fin S320000x16x3.rank)
  bcast_S_S320000x16x3 : S_.BroadcastsInDim S320000x16x3 (![] : Fin 0 → Fin S320000x16x3.rank)
  bitsLt_bf16_f32 : FTy.bits .bf16 < FTy.bits .f32
  shapeCasts_S128x768_S128x16x16x3 : S128x768.ShapeCasts S128x16x16x3
  transposes_S128x16x16x3_S128x16x3x16_0_1_3_2 : S128x16x16x3.Transposes [0, 1, 3, 2] S128x16x3x16
  shapeCasts_S128x16x3x16_S128x768 : S128x16x3x16.ShapeCasts S128x768
  shapeCasts_S768_S16x16x3 : S768.ShapeCasts S16x16x3
  transposes_S16x16x3_S16x3x16_0_2_1 : S16x16x3.Transposes [0, 2, 1] S16x3x16
  shapeCasts_S16x3x16_S768 : S16x3x16.ShapeCasts S768
  inb_S400x32_S400x32_0_0 : ∀ a, (![0, 0] : Fin 2 → Nat) a + S400x32.size a ≤ S400x32.size a
  h_S400x32 : 0 < S400x32.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S400x128 : S1x128.Broadcasts S400x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S768_S768_0 : ∀ a, (![0] : Fin 1 → Nat) a + S768.size a ≤ S768.size a
  h_S768 : 0 < S768.numel
  shapeCasts_S768_S768 : S768.ShapeCasts S768
  shapeCasts_S768_S1x768 : S768.ShapeCasts S1x768
  broadcasts_S1x768_S400x768 : S1x768.Broadcasts S400x768
  shapeCasts_S400x768_S400x16x48 : S400x768.ShapeCasts S400x16x48
  inb_S400x16x3_S400x16x3_0_0_0 : ∀ a, (![0, 0, 0] : Fin 3 → Nat) a + S400x16x3.size a ≤ S400x16x3.size a
  h_S400x16x3 : 0 < S400x16x3.numel
  shapeCasts_S400x16x3_S400x16x3 : S400x16x3.ShapeCasts S400x16x3
  inb_S400x3x9_S400x3x9_0_0_0 : ∀ a, (![0, 0, 0] : Fin 3 → Nat) a + S400x3x9.size a ≤ S400x3x9.size a
  h_S400x3x9 : 0 < S400x3x9.numel
  slices_S400x16x9_o0_0_0_S400x16x3 : S400x16x9.Slices ![0, 0, 0] S400x16x3
  slices_S400x16x9_o0_0_3_S400x16x3 : S400x16x9.Slices ![0, 0, 3] S400x16x3
  slices_S400x16x9_o0_0_6_S400x16x3 : S400x16x9.Slices ![0, 0, 6] S400x16x3
  concatenates_S400x16x3_S400x16x3_S400x16x3_S400x48x3_d1 : Shape.Concatenates [S400x16x3, S400x16x3, S400x16x3] S400x48x3 1
  gather_S10000x16x3_S320000x1_S320000x16x3_12_0_n_n_0_1_1163_wf : GatherDims.WF S10000x16x3 S320000x1 S320000x16x3 [1, 2] [0] [] [0] [] 1 ![1, 16, 3]
  dot_S400x32_S32x128_S400x128_1_0_0_1_n_n_wf : DotDims.WF S400x32 S32x128 S400x128 [1] [0] [0] [1] [] []
  dot_S400x128_S128x768_S400x768_1_0_0_1_n_n_wf : DotDims.WF S400x128 S128x768 S400x768 [1] [0] [0] [1] [] []
  dot_S400x16x3_S400x3x9_S400x16x9_2_1_1_2_0_0_wf : DotDims.WF S400x16x3 S400x3x9 S400x16x9 [2] [1] [1] [2] [0] [0]
  dot_S400x16x48_S400x48x3_S400x16x3_2_1_1_2_0_0_wf : DotDims.WF S400x16x48 S400x48x3 S400x16x3 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x32.size a ≤ S320000x32.size a
  hwx0_0 : ∀ i : grid0.Coords, EltTy.bits .f32 = 32 ∨ (Rect.block (s := S320000x32) S400x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x16x3.size a ≤ S320000x16x3.size a
  hwx0_1 : ∀ i : grid0.Coords, EltTy.bits .f32 = 32 ∨ (Rect.block (s := S320000x16x3) S400x16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x3x9.size a ≤ S320000x3x9.size a
  hwx0_2 : ∀ i : grid0.Coords, EltTy.bits .f32 = 32 ∨ (Rect.block (s := S320000x3x9) S400x3x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .bf16 = 32 ∨ (Rect.block (s := S32x128) S32x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x768.size a ≤ S128x768.size a
  hwx0_5 : ∀ i : grid0.Coords, EltTy.bits .bf16 = 32 ∨ (Rect.block (s := S128x768) S128x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x16x3.size a ≤ S320000x16x3.size a
  hwx0_7 : ∀ i : grid0.Coords, EltTy.bits .f32 = 32 ∨ (Rect.block (s := S320000x16x3) S400x16x3.size (cc0_transform_7 i) (hinb0_7 i)).WholeWords (EltTy.packing .f32)

variable [Facts₀]

def gather_S10000x16x3_S320000x1_S320000x16x3_12_0_n_n_0_1_1163 : GatherDims S10000x16x3 S320000x1 S320000x16x3 where
  offsetDims := [1, 2]
  collapsedSliceDims := [0]
  operandBatchingDims := []
  startIndicesBatchingDims := []
  startIndexMap := [0]
  indexVectorDim := 1
  sliceSizes := ![1, 16, 3]
  wf := gather_S10000x16x3_S320000x1_S320000x16x3_12_0_n_n_0_1_1163_wf
def dot_S400x32_S32x128_S400x128_1_0_0_1_n_n : DotDims S400x32 S32x128 S400x128 where
  lhsContracting := [1]
  rhsContracting := [0]
  lhsNonContracting := [0]
  rhsNonContracting := [1]
  lhsBatch := []
  rhsBatch := []
  wf := dot_S400x32_S32x128_S400x128_1_0_0_1_n_n_wf
def dot_S400x128_S128x768_S400x768_1_0_0_1_n_n : DotDims S400x128 S128x768 S400x768 where
  lhsContracting := [1]
  rhsContracting := [0]
  lhsNonContracting := [0]
  rhsNonContracting := [1]
  lhsBatch := []
  rhsBatch := []
  wf := dot_S400x128_S128x768_S400x768_1_0_0_1_n_n_wf
def dot_S400x16x3_S400x3x9_S400x16x9_2_1_1_2_0_0 : DotDims S400x16x3 S400x3x9 S400x16x9 where
  lhsContracting := [2]
  rhsContracting := [1]
  lhsNonContracting := [1]
  rhsNonContracting := [2]
  lhsBatch := [0]
  rhsBatch := [0]
  wf := dot_S400x16x3_S400x3x9_S400x16x9_2_1_1_2_0_0_wf
def dot_S400x16x48_S400x48x3_S400x16x3_2_1_1_2_0_0 : DotDims S400x16x48 S400x48x3 S400x16x3 where
  lhsContracting := [2]
  rhsContracting := [1]
  lhsNonContracting := [1]
  rhsNonContracting := [2]
  lhsBatch := [0]
  rhsBatch := [0]
  wf := dot_S400x16x48_S400x48x3_S400x16x3_2_1_1_2_0_0_wf

abbrev win0_0 : Pipeline.Window sig grid0 :=
  Pipeline.Window.ofSpec (Memref.whole main_arg2) S400x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S400x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x3x9.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S400x16x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S320000 : Shape := ⟨1, ![320000]⟩
abbrev S320000x3x9 : Shape := ⟨3, ![320000, 3, 9]⟩
abbrev S320000x32 : Shape := ⟨2, ![320000, 32]⟩
abbrev S10000x16x3 : Shape := ⟨3, ![10000, 16, 3]⟩
abbrev S32x128 : Shape := ⟨2, ![32, 128]⟩
abbrev S128 : Shape := ⟨1, ![128]⟩
abbrev S128x768 : Shape := ⟨2, ![128, 768]⟩
abbrev S768 : Shape := ⟨1, ![768]⟩
abbrev S320000x128 : Shape := ⟨2, ![320000, 128]⟩
abbrev S1x128 : Shape := ⟨2, ![1, 128]⟩
abbrev S_ : Shape := ⟨0, ![]⟩
abbrev S320000x768 : Shape := ⟨2, ![320000, 768]⟩
abbrev S1x768 : Shape := ⟨2, ![1, 768]⟩
abbrev S320000x16x48 : Shape := ⟨3, ![320000, 16, 48]⟩
abbrev S320000x1 : Shape := ⟨2, ![320000, 1]⟩
abbrev S320000x16x3 : Shape := ⟨3, ![320000, 16, 3]⟩
abbrev S320000x16x9 : Shape := ⟨3, ![320000, 16, 9]⟩
abbrev S320000x48x3 : Shape := ⟨3, ![320000, 48, 3]⟩

abbrev nBuf : Space → Nat
  | .hbm => 32
  | .vmem => 0
  | .smem => 0
  | _ => 0

abbrev bufTy : (tb : Table) → Fin (tcTables nBuf tb) → BufTy
  | .hbm, ⟨0, _⟩ => ⟨S320000, .i32⟩
  | .hbm, ⟨1, _⟩ => ⟨S320000x3x9, .f32⟩
  | .hbm, ⟨2, _⟩ => ⟨S320000x32, .f32⟩
  | .hbm, ⟨3, _⟩ => ⟨S10000x16x3, .f32⟩
  | .hbm, ⟨4, _⟩ => ⟨S32x128, .f32⟩
  | .hbm, ⟨5, _⟩ => ⟨S128, .f32⟩
  | .hbm, ⟨6, _⟩ => ⟨S128x768, .f32⟩
  | .hbm, ⟨7, _⟩ => ⟨S768, .f32⟩
  | .hbm, ⟨8, _⟩ => ⟨S320000x128, .f32⟩
  | .hbm, ⟨9, _⟩ => ⟨S1x128, .f32⟩
  | .hbm, ⟨10, _⟩ => ⟨S320000x128, .f32⟩
  | .hbm, ⟨11, _⟩ => ⟨S320000x128, .f32⟩
  | .hbm, ⟨12, _⟩ => ⟨S_, .f32⟩
  | .hbm, ⟨13, _⟩ => ⟨S320000x128, .f32⟩
  | .hbm, ⟨14, _⟩ => ⟨S320000x128, .f32⟩
  | .hbm, ⟨15, _⟩ => ⟨S320000x768, .f32⟩
  | .hbm, ⟨16, _⟩ => ⟨S1x768, .f32⟩
  | .hbm, ⟨17, _⟩ => ⟨S320000x768, .f32⟩
  | .hbm, ⟨18, _⟩ => ⟨S320000x768, .f32⟩
  | .hbm, ⟨19, _⟩ => ⟨S320000x16x48, .f32⟩
  | .hbm, ⟨20, _⟩ => ⟨S_, .i32⟩
  | .hbm, ⟨21, _⟩ => ⟨S320000, .i32⟩
  | .hbm, ⟨22, _⟩ => ⟨S320000, .i1⟩
  | .hbm, ⟨23, _⟩ => ⟨S_, .i32⟩
  | .hbm, ⟨24, _⟩ => ⟨S320000, .i32⟩
  | .hbm, ⟨25, _⟩ => ⟨S320000, .i32⟩
  | .hbm, ⟨26, _⟩ => ⟨S320000, .i32⟩
  | .hbm, ⟨27, _⟩ => ⟨S320000x1, .i32⟩
  | .hbm, ⟨28, _⟩ => ⟨S320000x16x3, .f32⟩
  | .hbm, ⟨29, _⟩ => ⟨S320000x16x9, .f32⟩
  | .hbm, ⟨30, _⟩ => ⟨S320000x48x3, .f32⟩
  | .hbm, ⟨31, _⟩ => ⟨S320000x16x3, .f32⟩
  | _, _ => ⟨S320000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S768_S1x768_1 : S768.BroadcastsInDim S1x768 (![1] : Fin 1 → Fin S1x768.rank)
  bcast_S1x768_S320000x768_0_1 : S1x768.BroadcastsInDim S320000x768 (![0, 1] : Fin 2 → Fin S320000x768.rank)
  shapeCasts_S320000x768_S320000x16x48 : S320000x768.ShapeCasts S320000x16x48
  bcast_S_S320000 : S_.BroadcastsInDim S320000 (![] : Fin 0 → Fin S320000.rank)
  bcast_S320000_S320000x1_0 : S320000.BroadcastsInDim S320000x1 (![0] : Fin 1 → Fin S320000x1.rank)
  shapeCasts_S320000x16x9_S320000x48x3 : S320000x16x9.ShapeCasts S320000x48x3
  dot_S320000x32_S32x128_S320000x128_1_0_0_1_n_n_wf : DotDims.WF S320000x32 S32x128 S320000x128 [1] [0] [0] [1] [] []
  dot_S320000x128_S128x768_S320000x768_1_0_0_1_n_n_wf : DotDims.WF S320000x128 S128x768 S320000x768 [1] [0] [0] [1] [] []
  gather_S10000x16x3_S320000x1_S320000x16x3_12_0_n_n_0_1_1163_wf : GatherDims.WF S10000x16x3 S320000x1 S320000x16x3 [1, 2] [0] [] [0] [] 1 ![1, 16, 3]
  dot_S320000x16x3_S320000x3x9_S320000x16x9_2_1_1_2_0_0_wf : DotDims.WF S320000x16x3 S320000x3x9 S320000x16x9 [2] [1] [1] [2] [0] [0]
  dot_S320000x16x48_S320000x48x3_S320000x16x3_2_1_1_2_0_0_wf : DotDims.WF S320000x16x48 S320000x48x3 S320000x16x3 [2] [1] [1] [2] [0] [0]

variable [Facts₀]

def dot_S320000x32_S32x128_S320000x128_1_0_0_1_n_n : DotDims S320000x32 S32x128 S320000x128 where
  lhsContracting := [1]
  rhsContracting := [0]
  lhsNonContracting := [0]
  rhsNonContracting := [1]
  lhsBatch := []
  rhsBatch := []
  wf := dot_S320000x32_S32x128_S320000x128_1_0_0_1_n_n_wf
def dot_S320000x128_S128x768_S320000x768_1_0_0_1_n_n : DotDims S320000x128 S128x768 S320000x768 where
  lhsContracting := [1]
  rhsContracting := [0]
  lhsNonContracting := [0]
  rhsNonContracting := [1]
  lhsBatch := []
  rhsBatch := []
  wf := dot_S320000x128_S128x768_S320000x768_1_0_0_1_n_n_wf
def gather_S10000x16x3_S320000x1_S320000x16x3_12_0_n_n_0_1_1163 : GatherDims S10000x16x3 S320000x1 S320000x16x3 where
  offsetDims := [1, 2]
  collapsedSliceDims := [0]
  operandBatchingDims := []
  startIndicesBatchingDims := []
  startIndexMap := [0]
  indexVectorDim := 1
  sliceSizes := ![1, 16, 3]
  wf := gather_S10000x16x3_S320000x1_S320000x16x3_12_0_n_n_0_1_1163_wf
def dot_S320000x16x3_S320000x3x9_S320000x16x9_2_1_1_2_0_0 : DotDims S320000x16x3 S320000x3x9 S320000x16x9 where
  lhsContracting := [2]
  rhsContracting := [1]
  lhsNonContracting := [1]
  rhsNonContracting := [2]
  lhsBatch := [0]
  rhsBatch := [0]
  wf := dot_S320000x16x3_S320000x3x9_S320000x16x9_2_1_1_2_0_0_wf
def dot_S320000x16x48_S320000x48x3_S320000x16x3_2_1_1_2_0_0 : DotDims S320000x16x48 S320000x48x3 S320000x16x3 where
  lhsContracting := [2]
  rhsContracting := [1]
  lhsNonContracting := [1]
  rhsNonContracting := [2]
  lhsBatch := [0]
  rhsBatch := [0]
  wf := dot_S320000x16x48_S320000x48x3_S320000x16x3_2_1_1_2_0_0_wf

class Facts : Prop extends Facts₀ where

variable [Facts]
-- ==== Proof.EdgeConv.lean ====
/-
  THE EDGE CONVOLUTION AS ONE FUNCTION OF ITS ARGUMENT ARRAYS, index by index, over the extended reals.

  Per edge `e`: a two-layer radial network turns the edge's 32 invariant features into 768 weights,
  `radial e q = ∑_c relu(∑_x ef[e,x]·W1[x,c] + b1[c]) · W2[c,q] + b2[q]`, read as a 16 × 48 matrix whose column index is
  `j = 3·m + r` (input multiplicity `m`, tensor-product path `r`); the edge's source-node features `fe[e] : 16 × 3` are
  contracted with the edge's basis `bs[e] : 3 × 9`, `basisProd e m k = ∑_d' fe[e,m,d']·bs[e,d',k]`, and that 16 × 9 matrix is
  read as 48 × 3 with row `j = 3·m + r` and column `d` at `k = 3·r + d`; the result is their product,
  `mixed e i d = ∑_m ∑_r radial e (48·i + 3·m + r) · basisProd e m (3·r + d)`.

  A sum over the 48 rows is this double sum whichever of the two orders `j = 3·m + r` (path fastest) or `j = 16·r + m`
  (multiplicity fastest) names the row (`sum_rows_path_fastest`, `sum_rows_multiplicity_fastest`): a finite sum over the
  extended reals may be re-indexed by a bijection and its two summations exchanged, infinities or not.
-/
import Idealize.ShloMosaic.PureOps.Ideal
import Idealize.ShloMosaic.Lib.ValueIdx
import Mathlib.Algebra.BigOperators.Fin
import Mathlib.Logic.Equiv.Fin.Basic

noncomputable section

open scoped BigOperators

namespace Cert.EdgeConv

open Idealize.ShloMosaic Idealize.ShloMosaic.ValueIdx

section Spec

variable (ef : FVec Ideal ⟨2, ![320000, 32]⟩ .f32) (W1 : FVec Ideal ⟨2, ![32, 128]⟩ .f32) (b1 : FVec Ideal ⟨1, ![128]⟩ .f32)
  (W2 : FVec Ideal ⟨2, ![128, 768]⟩ .f32) (b2 : FVec Ideal ⟨1, ![768]⟩ .f32)
  (fe : FVec Ideal ⟨3, ![320000, 16, 3]⟩ .f32) (bs : FVec Ideal ⟨3, ![320000, 3, 9]⟩ .f32)

/-- The radial network's hidden unit `c` at edge `e`: `relu(∑_x ef[e,x]·W1[x,c] + b1[c])`. -/
def hidden (e : Fin 320000) (c : Fin 128) : EReal :=
  max ((∑ x : Fin 32, ef (ix2 e x) * W1 (ix2 x c)) + b1 (ix1 c)) (Ideal.ofBits .f32 0x00000000#32)

/-- The radial weight `q` at edge `e`: `∑_c hidden e c · W2[c,q] + b2[q]`. -/
def radial (e : Fin 320000) (q : Fin 768) : EReal :=
  (∑ c : Fin 128, hidden ef W1 b1 e c * W2 (ix2 c q)) + b2 (ix1 q)

/-- The source features of edge `e` against its basis: `∑_d' fe[e,m,d']·bs[e,d',k]`. -/
def basisProd (e : Fin 320000) (m : Fin 16) (k : Fin 9) : EReal :=
  ∑ d' : Fin 3, fe (ix3 e m d') * bs (ix3 e d' k)

/-- The result at edge `e`, output multiplicity `i`, component `d`. -/
def mixed (e : Fin 320000) (i : Fin 16) (d : Fin 3) : EReal :=
  ∑ m : Fin 16, ∑ r : Fin 3,
    radial ef W1 b1 W2 b2 e ⟨48 * i.val + 3 * m.val + r.val, by omega⟩ * basisProd fe bs e m ⟨3 * r.val + d.val, by omega⟩

/-- The result array. -/
def result : FVec Ideal ⟨3, ![320000, 16, 3]⟩ .f32 := fun I =>
  mixed ef W1 b1 W2 b2 fe bs ⟨(I 0).val, (I 0).isLt⟩ ⟨(I 1).val, (I 1).isLt⟩ ⟨(I 2).val, (I 2).isLt⟩

theorem result_apply (e : Fin 320000) (i : Fin 16) (d : Fin 3) :
    result ef W1 b1 W2 b2 fe bs (ix3 e i d) = mixed ef W1 b1 W2 b2 fe bs e i d := rfl

end Spec

section Rows

variable {β : Type*} [AddCommMonoid β]

/-- A sum over the 48 rows, the row named `3·m + r`. -/
theorem sum_rows_path_fastest (F : Fin 48 → β) :
    ∑ j, F j = ∑ m : Fin 16, ∑ r : Fin 3, F ⟨3 * m.val + r.val, by omega⟩ := by
  rw [← Fintype.sum_prod_type' (f := fun (m : Fin 16) (r : Fin 3) => F ⟨3 * m.val + r.val, by omega⟩)]
  refine (Fintype.sum_equiv (finProdFinEquiv (m := 16) (n := 3)) _ F fun x => ?_).symm
  exact congrArg F (Fin.ext (by show 3 * x.1.val + x.2.val = x.2.val + 3 * x.1.val; omega))

/-- A sum over the 48 rows, the row named `16·r + m`. -/
theorem sum_rows_multiplicity_fastest (F : Fin 48 → β) :
    ∑ j, F j = ∑ m : Fin 16, ∑ r : Fin 3, F ⟨16 * r.val + m.val, by omega⟩ := by
  rw [Finset.sum_comm, ← Fintype.sum_prod_type' (f := fun (r : Fin 3) (m : Fin 16) => F ⟨16 * r.val + m.val, by omega⟩)]
  refine (Fintype.sum_equiv (finProdFinEquiv (m := 3) (n := 16)) _ F fun x => ?_).symm
  exact congrArg F (Fin.ext (by show 16 * x.1.val + x.2.val = x.2.val + 16 * x.1.val; omega))

end Rows

end Cert.EdgeConv

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.LibBatchedDot.lean ====
/-
  A BATCHED MATRIX PRODUCT READ AT AN INDEX, over the extended reals.

  For the dimension numbers of `[B, M, K] × [B, K, N] → [B, M, N]` (the einsum 'bmk,bkn->bmn': the leading axis of both
  operands is a batch axis, the left operand's last axis is contracted with the right operand's middle axis), a product
  accumulated into the zero array is, at batch `b`, row `r` and column `c`, the sum over `k` of `L[b, r, k] · R[b, k, c]`
  (`matmul_zero_apply`), and the host's `dot_general` at the same dimension numbers is the same sum (`dotGeneral_apply`).
  Every term is one product of one entry of each operand, so nothing of extended-real arithmetic beyond `0 + s = s` is used and
  both facts hold at the infinities too. `dims B M K N wf` builds the record from the sizes; a record with those six lists is
  it by `rfl`.
-/
import Idealize.ShloMosaic.PureOps.Ideal.Laws
import Idealize.ShloMosaic.Lib.ValueIdx

noncomputable section

open scoped BigOperators

namespace Idealize.ShloMosaic.BatchedDot

open Idealize.ShloMosaic Idealize.ShloMosaic.ValueIdx

/-- The dimension numbers a program prints as `<[2], [1], [1], [2], [0, 0, 0, 1, 1, 2], [0], [0]>` (contracting, non-contracting, the
    output order — which is not a field of the record —, batch) for operands `[B, M, K]` and `[B, K, N]` and a result `[B, M, N]`;
    their conditions `wf` are decided on a program's literal shapes. -/
abbrev dims (B M K N : Nat)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

variable {B M K N : Nat} (wf : DotDims.WF ⟨3, ![B, M, K]⟩ ⟨3, ![B, K, N]⟩ ⟨3, ![B, M, N]⟩ [2] [1] [1] [2] [0] [0])

/-- The left operand's batch coordinate is the result's. -/
theorem lhs_0 (i : (⟨3, ![B, M, N]⟩ : Shape).Idx) (q : (dims B M K N wf).contr.Idx) :
    ((dims B M K N wf).lhsIdx i q 0).val = (i 0).val := by
  unfold DotDims.lhsIdx
  rw [dif_pos (show (0 : Fin 3) ∈ (dims B M K N wf).lhsBatch from List.mem_singleton.mpr rfl)]
  rfl

/-- The left operand's row is the result's row. -/
theorem lhs_1 (i : (⟨3, ![B, M, N]⟩ : Shape).Idx) (q : (dims B M K N wf).contr.Idx) :
    ((dims B M K N wf).lhsIdx i q 1).val = (i 1).val := by
  unfold DotDims.lhsIdx
  rw [dif_neg (show ¬(1 : Fin 3) ∈ (dims B M K N wf).lhsBatch from fun h => absurd (List.mem_singleton.mp h) (show (1 : Fin 3) ≠ 0 by decide)),
    dif_pos (show (1 : Fin 3) ∈ (dims B M K N wf).lhsNonContracting from List.mem_singleton.mpr rfl)]
  rfl

/-- The left operand's last coordinate is the contraction index. -/
theorem lhs_2 (i : (⟨3, ![B, M, N]⟩ : Shape).Idx) (q : (dims B M K N wf).contr.Idx) :
    ((dims B M K N wf).lhsIdx i q 2).val = (q ⟨0, Nat.one_pos⟩).val :=
  (dims B M K N wf).lhsIdx_val_of_single rfl i q

/-- The right operand's batch coordinate is the result's. -/
theorem rhs_0 (i : (⟨3, ![B, M, N]⟩ : Shape).Idx) (q : (dims B M K N wf).contr.Idx) :
    ((dims B M K N wf).rhsIdx i q 0).val = (i 0).val := by
  unfold DotDims.rhsIdx
  rw [dif_pos (show (0 : Fin 3) ∈ (dims B M K N wf).rhsBatch from List.mem_singleton.mpr rfl)]
  rfl

/-- The right operand's middle coordinate is the contraction index. -/
theorem rhs_1 (i : (⟨3, ![B, M, N]⟩ : Shape).Idx) (q : (dims B M K N wf).contr.Idx) :
    ((dims B M K N wf).rhsIdx i q 1).val = (q ⟨0, Nat.one_pos⟩).val :=
  (dims B M K N wf).rhsIdx_val_of_single rfl i q

/-- The right operand's column is the result's column. -/
theorem rhs_2 (i : (⟨3, ![B, M, N]⟩ : Shape).Idx) (q : (dims B M K N wf).contr.Idx) :
    ((dims B M K N wf).rhsIdx i q 2).val = (i 2).val := by
  unfold DotDims.rhsIdx
  rw [dif_neg (show ¬(2 : Fin 3) ∈ (dims B M K N wf).rhsBatch from fun h => absurd (List.mem_singleton.mp h) (show (2 : Fin 3) ≠ 0 by decide)),
    dif_pos (show (2 : Fin 3) ∈ (dims B M K N wf).rhsNonContracting from List.mem_singleton.mpr rfl)]
  rfl

/-- The two operand indices of the term `k` of the sum at `(b, r, c)`. -/
theorem lhsIdx_eq (b : Fin B) (r : Fin M) (c : Fin N) (k : Fin K) :
    (dims B M K N wf).lhsIdx (ix3 b r c) ((contrEquiv1 (dims B M K N wf) K rfl rfl).symm k) = ix3 b r k :=
  funext fun a => Fin.ext (by
    have hk := contrEquiv1_symm_val (dims B M K N wf) K rfl rfl k
    match a with
    | ⟨0, _⟩ => exact lhs_0 wf _ _
    | ⟨1, _⟩ => exact lhs_1 wf _ _
    | ⟨2, _⟩ => exact (lhs_2 wf _ _).trans hk)

theorem rhsIdx_eq (b : Fin B) (r : Fin M) (c : Fin N) (k : Fin K) :
    (dims B M K N wf).rhsIdx (ix3 b r c) ((contrEquiv1 (dims B M K N wf) K rfl rfl).symm k) = ix3 b k c :=
  funext fun a => Fin.ext (by
    have hk := contrEquiv1_symm_val (dims B M K N wf) K rfl rfl k
    match a with
    | ⟨0, _⟩ => exact rhs_0 wf _ _
    | ⟨1, _⟩ => exact (rhs_1 wf _ _).trans hk
    | ⟨2, _⟩ => exact rhs_2 wf _ _)

/-- THE PRODUCT AT `(b, r, c)`, accumulated into zero: `∑ₖ L[b, r, k] · R[b, k, c]` (stated over `matmul`, the name a printed
    program applies). -/
theorem matmul_zero_apply {φ₁ φ₂ : FTy} (prec : Option ContractPrecision)
    (L : FVec Ideal (⟨3, ![B, M, K]⟩ : Shape) φ₁) (R : FVec Ideal (⟨3, ![B, K, N]⟩ : Shape) φ₂)
    (b : Fin B) (r : Fin M) (c : Fin N) :
    matmul (F := Ideal) (dims B M K N wf) prec L R (constant (⟨3, ![B, M, N]⟩ : Shape) .f32 0x00000000#32) (ix3 b r c)
      = ∑ k : Fin K, L (ix3 b r k) * R (ix3 b k c) := by
  show FloatOps.matmul (dims B M K N wf) prec L R (constant (⟨3, ![B, M, N]⟩ : Shape) .f32 0x00000000#32) (ix3 b r c) = _
  rw [Ideal.matmul_constant_zero_apply, ← Equiv.sum_comp (contrEquiv1 (dims B M K N wf) K rfl rfl).symm]
  refine Finset.sum_congr rfl fun k _ => ?_
  rw [lhsIdx_eq wf b r c k, rhsIdx_eq wf b r c k]

/-- THE HOST'S PRODUCT AT `(b, r, c)`: the same sum (stated over `Host.dotGeneral`, the name a printed reference applies). -/
theorem dotGeneral_apply {φ₁ φ₂ : FTy} (prec : Option ContractPrecision)
    (L : FVec Ideal (⟨3, ![B, M, K]⟩ : Shape) φ₁) (R : FVec Ideal (⟨3, ![B, K, N]⟩ : Shape) φ₂)
    (b : Fin B) (r : Fin M) (c : Fin N) :
    Host.dotGeneral (F := Ideal) (dims B M K N wf) prec L R (ix3 b r c) = ∑ k : Fin K, L (ix3 b r k) * R (ix3 b k c) := by
  simp only [Host.dotGeneral]
  rw [Ideal.dotGeneral_apply, ← Equiv.sum_comp (contrEquiv1 (dims B M K N wf) K rfl rfl).symm]
  refine Finset.sum_congr rfl fun k _ => ?_
  rw [lhsIdx_eq wf b r c k, rhsIdx_eq wf b r c k]

end Idealize.ShloMosaic.BatchedDot

end
-- ==== Proof.LibSlice3Axis2.lean ====
/-
  A RANK-3 ARRAY CUT ALONG ITS LAST AXIS, read at an index.

  The library reads unit-stride slices along one axis for several ranks and axes (Lib/ValueLayout.lean); this is the form for a
  rank-3 array cut along axis 2: `x[:, :, o:o+m]` at `(a, b, j)` is `x` at `(a, b, o + j)`.
-/
import Idealize.ShloMosaic.Lib.Pipeline.Value
import Idealize.ShloMosaic.Lib.ValueIdx

namespace Idealize.ShloMosaic.ValueIdx

open Idealize.ShloMosaic

variable {α : Type}

/-- A rank-3 array cut along axis 2 from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.Payload.lean ====
/-
  THE KERNEL BODY'S RESULT AT AN INDEX.

  One grid point handles a block of 400 edges. From the block's rows of the edge features, the gathered source features and the
  basis, and from the whole (re-ordered) weights, the body computes, per edge `p` of the block:
  the hidden layer `hid p c = relu(∑_x ef[p,x]·W1[x,c] + b1[c])`; the radial weights `∑_c hid p c · W2'[c,q] + b2'[q]`, read as a
  16 × 48 matrix (`rad`); the 16 × 9 product of the source features with the basis (`bprod`); that product's three column
  groups `[0,3)`, `[3,6)`, `[6,9)` stacked as 48 × 3, so that row `16·r + m` holds columns `3·r … 3·r+2` of row `m`
  (`restacked`); and the product of the 16 × 48 and the 48 × 3 matrices. The conversions to bf16 are the identity over the
  extended reals.

  `W2'`, `b2'` are `W2`, `b2` with column `48·i + 16·r + m` holding the original column `48·i + 3·m + r`: the body's row order
  `16·r + m` meets exactly the weights' column order, and summing over the 48 rows in this order or in the order `3·m + r` is the
  same sum. So the body's result at `(p, i, d)` is `EdgeConv.mixed` at the edge the block's row `p` is (`pay_apply`).
-/
import proofs.«422306_j18167711662487_3_alg».proof.Proof.Gen.KernelIdeal.Skeleton
import proofs.«422306_j18167711662487_3_alg».proof.Proof.EdgeConv
import proofs.«422306_j18167711662487_3_alg».proof.Proof.LibPlainDot
import proofs.«422306_j18167711662487_3_alg».proof.Proof.LibBatchedDot
import proofs.«422306_j18167711662487_3_alg».proof.Proof.LibSlice3Axis2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

section Stages

variable (v0 : FVec Ideal S400x32 .f32) (v2 : FVec Ideal S32x128 .bf16) (v5 : FVec Ideal S128 .f32) (v12 : FVec Ideal S128x768 .bf16)
  (v15 : FVec Ideal S768 .f32) (v22 : FVec Ideal S400x16x3 .f32) (v25 : FVec Ideal S400x3x9 .f32)

/-- The block's hidden layer. -/
def hid : FVec Ideal S400x128 .f32 :=
  maximumf
    (addf (matmul dot_S400x32_S32x128_S400x128_1_0_0_1_n_n none (truncf .bf16 v0 bitsLt_bf16_f32)
        (shapeCast S32x128 v2 shapeCasts_S32x128_S32x128) (constant S400x128 .f32 0x00000000#32))
      (broadcastTo S400x128 (shapeCast S1x128 v5 shapeCasts_S128_S1x128) broadcasts_S1x128_S400x128))
    (broadcast S400x128 (Scalar.ofBits .f32 0x00000000#32))

/-- The block's radial weights, as a 16 × 48 matrix per edge. -/
def rad : FVec Ideal S400x16x48 .f32 :=
  shapeCast S400x16x48
    (addf (matmul dot_S400x128_S128x768_S400x768_1_0_0_1_n_n none (truncf .bf16 (hid v0 v2 v5) bitsLt_bf16_f32)
        (shapeCast S128x768 v12 shapeCasts_S128x768_S128x768) (constant S400x768 .f32 0x00000000#32))
      (broadcastTo S400x768 (shapeCast S1x768 (shapeCast S768 v15 shapeCasts_S768_S768) shapeCasts_S768_S1x768)
        broadcasts_S1x768_S400x768))
    shapeCasts_S400x768_S400x16x48

/-- The block's source features against its basis: 16 × 9 per edge. -/
def bprod : FVec Ideal S400x16x9 .f32 :=
  matmul dot_S400x16x3_S400x3x9_S400x16x9_2_1_1_2_0_0 none
    (truncf .bf16 (shapeCast S400x16x3 v22 shapeCasts_S400x16x3_S400x16x3) bitsLt_bf16_f32) (truncf .bf16 v25 bitsLt_bf16_f32)
    (constant S400x16x9 .f32 0x00000000#32)

/-- The three column groups `[0,3)`, `[3,6)`, `[6,9)` of `bprod`. -/
abbrev groups : List ((s : Shape) × (s.Idx → Ideal .f32)) :=
  [⟨S400x16x3, extractStridedSlice S400x16x3 ![0, 0, 0] (bprod v22 v25) slices_S400x16x9_o0_0_0_S400x16x3⟩,
   ⟨S400x16x3, extractStridedSlice S400x16x3 ![0, 0, 3] (bprod v22 v25) slices_S400x16x9_o0_0_3_S400x16x3⟩,
   ⟨S400x16x3, extractStridedSlice S400x16x3 ![0, 0, 6] (bprod v22 v25) slices_S400x16x9_o0_0_6_S400x16x3⟩]

/-- The three column groups of `bprod` stacked along the row axis: 48 × 3 per edge. -/
def restacked : FVec Ideal S400x48x3 .f32 :=
  concatenate S400x48x3 1 (groups v22 v25) concatenates_S400x16x3_S400x16x3_S400x16x3_S400x48x3_d1

/-- The body's result is the product of the radial weights with the stacked column groups. -/
theorem pay_eq : k0_pay1 (F := Ideal) v0 v2 v5 v12 v15 v22 v25
    = matmul dot_S400x16x48_S400x48x3_S400x16x3_2_1_1_2_0_0 none (truncf .bf16 (rad v0 v2 v5 v12 v15) bitsLt_bf16_f32)
        (truncf .bf16 (restacked v22 v25) bitsLt_bf16_f32) (constant S400x16x3 .f32 0x00000000#32) := rfl

/-- The hidden layer at edge `p` of the block, unit `c`. -/
theorem hid_apply (p : Fin 400) (c : Fin 128) :
    hid v0 v2 v5 (ix2 p c)
      = max ((∑ x : Fin 32, v0 (ix2 p x) * v2 (ix2 x c)) + v5 (ix1 c)) (Ideal.ofBits .f32 0x00000000#32) := by
  unfold hid
  rw [maximumf_apply, addf_apply, broadcast_apply]
  refine congrArg₂ max (congrArg₂ (· + ·) ?_ ?_) rfl
  · refine (PlainDot.matmul_zero_apply 400 32 128 none _ _ p c).trans ?_
    refine Finset.sum_congr rfl fun x _ => ?_
    rw [truncf_apply, shapeCast_self]
  · refine (broadcastTo_1b_ab_apply _ _ p c).trans ?_
    exact shapeCast_a_1a_apply _ _ 0 c

/-- The radial weights at edge `p` of the block: entry `(i, j)` of the 16 × 48 matrix is weight `q = 48·i + j`. -/
theorem rad_apply (p : Fin 400) (i : Fin 16) (j : Fin 48) (q : Fin 768) (hq : q.val = 48 * i.val + j.val) :
    rad v0 v2 v5 v12 v15 (ix3 p i j) = (∑ c : Fin 128, hid v0 v2 v5 (ix2 p c) * v12 (ix2 c q)) + v15 (ix1 q) := by
  unfold rad
  refine (shapeCast_apply _ shapeCasts_S400x768_S400x16x48 (ix3 p i j) (ix2 p q) ?_).trans ?_
  · rw [Shape.rowMajor_val_two, Shape.rowMajor_val_three]
    show p.val * 768 + q.val = (p.val * 16 + i.val) * 48 + j.val
    omega
  · rw [addf_apply]
    refine congrArg₂ (· + ·) ?_ ?_
    · refine (PlainDot.matmul_zero_apply 400 128 768 none _ _ p q).trans ?_
      refine Finset.sum_congr rfl fun c _ => ?_
      rw [truncf_apply, shapeCast_self]
    · refine (broadcastTo_1b_ab_apply _ _ p q).trans ?_
      refine (shapeCast_a_1a_apply _ _ 0 q).trans ?_
      rw [shapeCast_self]

/-- The product of the source features with the basis at edge `p` of the block. -/
theorem bprod_apply (p : Fin 400) (mm : Fin 16) (k : Fin 9) :
    bprod v22 v25 (ix3 p mm k) = ∑ d' : Fin 3, v22 (ix3 p mm d') * v25 (ix3 p d' k) := by
  unfold bprod
  refine (BatchedDot.matmul_zero_apply _ none _ _ p mm k).trans ?_
  refine Finset.sum_congr rfl fun d' _ => ?_
  rw [truncf_apply, truncf_apply, shapeCast_self]

/-- Row `16·r + mm` of the stacked column groups holds columns `3·r … 3·r+2` of row `mm` of the product. -/
theorem restacked_apply (p : Fin 400) (r : Fin 3) (mm : Fin 16) (d : Fin 3) (j : Fin 48) (hj : j.val = 16 * r.val + mm.val)
    (k : Fin 9) (hk : k.val = 3 * r.val + d.val) :
    restacked v22 v25 (ix3 p j d) = bprod v22 v25 (ix3 p mm k) := by
  unfold restacked
  obtain ⟨rv, hrv⟩ := r
  have hj : j.val = 16 * rv + mm.val := hj
  have hk : k.val = 3 * rv + d.val := hk
  have h3 : rv = 0 ∨ rv = 1 ∨ rv = 2 := by omega
  rcases h3 with rfl | rfl | rfl
  · refine (concatenate_apply_piece (t := S400x48x3) (1 : Fin 3) (groups v22 v25)
      concatenates_S400x16x3_S400x16x3_S400x16x3_S400x48x3_d1 (ix3 p j d) 0 (by show (0 : Nat) < 3; omega) S400x16x3 _ rfl rfl 0 rfl
      (ix3 p mm d) (fun b hb => ?_) ?_).trans ?_
    · match b with
      | ⟨0, _⟩ => rfl
      | ⟨1, _⟩ => exact absurd rfl hb
      | ⟨2, _⟩ => rfl
    · show 0 + mm.val = j.val
      omega
    · exact slice3_axis2_apply 0 _ _ p mm d k (by omega)
  · refine (concatenate_apply_piece (t := S400x48x3) (1 : Fin 3) (groups v22 v25)
      concatenates_S400x16x3_S400x16x3_S400x16x3_S400x48x3_d1 (ix3 p j d) 1 (by show (1 : Nat) < 3; omega) S400x16x3 _ rfl rfl 16 rfl
      (ix3 p mm d) (fun b hb => ?_) ?_).trans ?_
    · match b with
      | ⟨0, _⟩ => rfl
      | ⟨1, _⟩ => exact absurd rfl hb
      | ⟨2, _⟩ => rfl
    · show 16 + mm.val = j.val
      omega
    · exact slice3_axis2_apply 3 _ _ p mm d k (by omega)
  · refine (concatenate_apply_piece (t := S400x48x3) (1 : Fin 3) (groups v22 v25)
      concatenates_S400x16x3_S400x16x3_S400x16x3_S400x48x3_d1 (ix3 p j d) 2 (by show (2 : Nat) < 3; omega) S400x16x3 _ rfl rfl 32 rfl
      (ix3 p mm d) (fun b hb => ?_) ?_).trans ?_
    · match b with
      | ⟨0, _⟩ => rfl
      | ⟨1, _⟩ => exact absurd rfl hb
      | ⟨2, _⟩ => rfl
    · show 32 + mm.val = j.val
      omega
    · exact slice3_axis2_apply 6 _ _ p mm d k (by omega)

end Stages

/-- THE BODY'S RESULT AT `(p, i, d)`: if row `p` of the block's edge features, gathered source features and basis is edge `e`'s
    (`h0`, `h22`, `h25`), the first-layer weights and bias are the arguments' (`h2`, `h5`), and the second-layer weights and
    bias are the arguments' with column `48·i + 16·r + mm` holding the original column `48·i + 3·mm + r` (`h12`, `h15`), the body's
    result is the edge convolution at `(e, i, d)`. -/
theorem pay_apply
    (v0 : FVec Ideal S400x32 .f32) (v2 : FVec Ideal S32x128 .bf16) (v5 : FVec Ideal S128 .f32) (v12 : FVec Ideal S128x768 .bf16)
    (v15 : FVec Ideal S768 .f32) (v22 : FVec Ideal S400x16x3 .f32) (v25 : FVec Ideal S400x3x9 .f32)
    (ef : FVec Ideal ⟨2, ![320000, 32]⟩ .f32) (W1 : FVec Ideal ⟨2, ![32, 128]⟩ .f32) (b1 : FVec Ideal ⟨1, ![128]⟩ .f32)
    (W2 : FVec Ideal ⟨2, ![128, 768]⟩ .f32) (b2 : FVec Ideal ⟨1, ![768]⟩ .f32)
    (fe : FVec Ideal ⟨3, ![320000, 16, 3]⟩ .f32) (bs : FVec Ideal ⟨3, ![320000, 3, 9]⟩ .f32)
    (e : Fin 320000) (p : Fin 400)
    (h0 : ∀ x : Fin 32, v0 (ix2 p x) = ef (ix2 e x))
    (h2 : ∀ (x : Fin 32) (c : Fin 128), v2 (ix2 x c) = W1 (ix2 x c))
    (h5 : ∀ c : Fin 128, v5 (ix1 c) = b1 (ix1 c))
    (h12 : ∀ (c : Fin 128) (i : Fin 16) (r : Fin 3) (mm : Fin 16),
      v12 (ix2 c ⟨48 * i.val + 16 * r.val + mm.val, by omega⟩) = W2 (ix2 c ⟨48 * i.val + 3 * mm.val + r.val, by omega⟩))
    (h15 : ∀ (i : Fin 16) (r : Fin 3) (mm : Fin 16),
      v15 (ix1 ⟨48 * i.val + 16 * r.val + mm.val, by omega⟩) = b2 (ix1 ⟨48 * i.val + 3 * mm.val + r.val, by omega⟩))
    (h22 : ∀ (mm : Fin 16) (d' : Fin 3), v22 (ix3 p mm d') = fe (ix3 e mm d'))
    (h25 : ∀ (d' : Fin 3) (k : Fin 9), v25 (ix3 p d' k) = bs (ix3 e d' k))
    (i : Fin 16) (d : Fin 3) :
    k0_pay1 (F := Ideal) v0 v2 v5 v12 v15 v22 v25 (ix3 p i d) = Cert.EdgeConv.mixed ef W1 b1 W2 b2 fe bs e i d := by
  rw [pay_eq]
  refine (BatchedDot.matmul_zero_apply _ none _ _ p i d).trans ?_
  rw [Cert.EdgeConv.sum_rows_multiplicity_fastest]
  unfold Cert.EdgeConv.mixed
  refine Finset.sum_congr rfl fun mm _ => Finset.sum_congr rfl fun r _ => ?_
  rw [truncf_apply, truncf_apply,
    rad_apply v0 v2 v5 v12 v15 p i ⟨16 * r.val + mm.val, by omega⟩ ⟨48 * i.val + 16 * r.val + mm.val, by omega⟩ (by show 48 * i.val + 16 * r.val + mm.val = 48 * i.val + (16 * r.val + mm.val); omega),
    restacked_apply v22 v25 p r mm d ⟨16 * r.val + mm.val, by omega⟩ rfl ⟨3 * r.val + d.val, by omega⟩ rfl,
    bprod_apply]
  unfold Cert.EdgeConv.radial Cert.EdgeConv.basisProd
  refine congrArg₂ (· * ·) (congrArg₂ (· + ·) (Finset.sum_congr rfl fun c _ => ?_) (h15 i r mm))
    (Finset.sum_congr rfl fun d' _ => by rw [h22, h25])
  rw [h12 c i r mm, hid_apply]
  unfold Cert.EdgeConv.hidden
  exact congrArg₂ (· * ·) (congrArg₂ max (congrArg₂ (· + ·) (Finset.sum_congr rfl fun x _ => by rw [h0, h2]) (h5 c)) rfl) rfl

end Cert.KernelIdeal.Payload

end
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.LibReduceAnd.lean ====
/-
  A REDUCTION BY `and` OF ONES IS ONE.

  A one-operand `stablehlo.reduce` of a one-bit array by `and`, from an initial value that is 1, is 1 at every result
  index all of whose contributing operand elements are 1 — the converse of the library's reading of `jnp.all`
  (Lib/ReduceAll.lean), which goes from the result to the elements.
-/
import Idealize.ShloMosaic.Lib.ReduceAll

namespace Idealize.ShloMosaic

namespace IntOp

/-- A left fold by `and` from 1 over one-bit words that are all 1 is 1. -/
theorem foldl_andi_of_all {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    exact foldl_andi_of_all f l fun n hn => h n (List.mem_cons_of_mem _ hn)

end IntOp

namespace Host

variable {s t u : Shape} {axes : List (Fin s.rank)}

/-- A `stablehlo.reduce` by `and` from an initial 1 is 1 at `j` when every operand element that reduces into `j` is 1. -/
theorem reduce_andi_of_all (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl, hinit]
  refine IntOp.foldl_andi_of_all x _ fun i hi => ?_
  rw [List.mem_filter] at hi
  exact hx i (by simpa using hi.2)

end Host

end Idealize.ShloMosaic
-- ==== Proof.HostSide.lean ====
/-
  WHAT THE KERNEL'S PALLAS CALL IS HANDED: the arrays the host operations before it leave.

  * The first-layer weights are handed over converted to bf16: over the extended reals, unchanged (`V_W1`).
  * The second-layer weights `W2 : 128 × 768` are handed over with their 768 columns re-ordered: column
    `48·i + 16·r + m` of what is handed over is column `48·i + 3·m + r` of `W2` (reshape to 128 × 16 × 16 × 3, exchange the
    last two axes, reshape back, convert to bf16), and the second-layer bias likewise (`V_W2p`, `V_b2p`).
  * The source-node features are handed over gathered per edge by `jnp.take`: the index is normalised (a negative index
    counts from the end), the rows are gathered, and a row whose normalised index is outside `[0, 9999]` is replaced by the
    fill value. Where every index is in `[-10000, 10000)` the normalised index is in `[0, 9999]`, no row is replaced, and
    what is handed over is the gather itself (`V_fe`).
-/
import proofs.«422306_j18167711662487_3_alg».proof.Proof.Gen.KernelIdeal.Frame
import proofs.«422306_j18167711662487_3_alg».proof.Proof.LibTRefCast
import proofs.«422306_j18167711662487_3_alg».proof.Proof.LibReduceAnd
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostSide

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The index array normalised as jnp does (a negative index counts from the end), as a column. -/
abbrev wrapped (c : Dev nD) : IVec S320000x1 32 :=
  broadcastInDim S320000x1 ![0] Facts₀.bcast_S320000_S320000x1_0
    (select (cmpi .slt (m ((c : Thread nD τ).loc main_arg0)) (broadcastInDim S320000 ![] Facts₀.bcast_S_S320000 (constantI S_ 32 0#32)))
      (addi (m ((c : Thread nD τ).loc main_arg0)) (broadcastInDim S320000 ![] Facts₀.bcast_S_S320000 (constantI S_ 32 10000#32)))
      (m ((c : Thread nD τ).loc main_arg0)))

/-- The source-node features gathered per edge at the normalised index. -/
abbrev gathered (c : Dev nD) : FVec Ideal S320000x16x3 .f32 :=
  Host.gather gather_S10000x16x3_S320000x1_S320000x16x3_12_0_n_n_0_1_1163 (m ((c : Thread nD τ).loc main_arg3)) (wrapped m c)

/-- The first-layer weights as handed over are the argument's. -/
theorem V_W1 (c : Dev nD) (x : Fin 32) (h : Fin 128) :
    (V m c main_v1 : S32x128.Idx → EReal) (ix2 x h) = (m ((c : Thread nD τ).loc main_arg4) : S32x128.Idx → EReal) (ix2 x h) := by
  have e : @Eq (FVec Ideal S32x128 .bf16) (V m c main_v1)
      (truncf .bf16 (m ((c : Thread nD τ).loc main_arg4) : FVec Ideal S32x128 .f32) Facts₀.bitsLt_bf16_f32) := by
    dsimp only [Gen.V]
    simp only [Gen.hostOps0, Gen.hostOps0_1, List.flatten_cons, List.flatten_nil, List.append_nil, List.cons_append, List.nil_append]
    after_results
  exact (congrFun e (ix2 x h)).trans (ValueIdx.truncf_apply _ _ _)

/-- Column `48·i + 16·r + mm` of the second-layer weights as handed over is column `48·i + 3·mm + r` of the argument. -/
theorem V_W2p (c : Dev nD) (h : Fin 128) (i : Fin 16) (r : Fin 3) (mm : Fin 16) :
    (V m c main_v8 : S128x768.Idx → EReal) (ix2 h ⟨48 * i.val + 16 * r.val + mm.val, by omega⟩)
      = (m ((c : Thread nD τ).loc main_arg6) : S128x768.Idx → EReal) (ix2 h ⟨48 * i.val + 3 * mm.val + r.val, by omega⟩) := by
  have e : @Eq (FVec Ideal S128x768 .bf16) (V m c main_v8)
      (truncf .bf16 (shapeCast S128x768 (transpose S128x16x3x16 [0, 1, 3, 2]
        (shapeCast S128x16x16x3 (m ((c : Thread nD τ).loc main_arg6) : FVec Ideal S128x768 .f32) Facts₀.shapeCasts_S128x768_S128x16x16x3)
        Facts₀.transposes_S128x16x16x3_S128x16x3x16_0_1_3_2) Facts₀.shapeCasts_S128x16x3x16_S128x768) Facts₀.bitsLt_bf16_f32) := by
    dsimp only [Gen.V]
    simp only [Gen.hostOps0, Gen.hostOps0_1, List.flatten_cons, List.flatten_nil, List.append_nil, List.cons_append, List.nil_append]
    after_results
    rfl
  refine (congrFun e _).trans ?_
  refine (ValueIdx.truncf_apply (φ := .f32) (ψ := .bf16) _ _ _).trans ?_
  -- column 48·i + 16·r + mm of row h is position (h, i, r, mm) of the 128 × 16 × 3 × 16 array
  refine (shapeCast_apply _ _ _ (ix4 h i r mm) ?_).trans ?_
  · rw [Shape.rowMajor_val_four, Shape.rowMajor_val_two]
    show ((h.val * 16 + i.val) * 3 + r.val) * 16 + mm.val = h.val * 768 + (48 * i.val + 16 * r.val + mm.val)
    omega
  -- the exchange of the last two axes reads position (h, i, mm, r) of the 128 × 16 × 16 × 3 array
  refine (transpose_apply _ _ _ _ (ix4 h i mm r) ?_).trans ?_
  · intro b
    match b with
    | ⟨0, _⟩ => rfl
    | ⟨1, _⟩ => rfl
    | ⟨2, _⟩ => rfl
    | ⟨3, _⟩ => rfl
  -- which is column 48·i + 3·mm + r of row h
  refine shapeCast_apply _ _ _ (ix2 h ⟨48 * i.val + 3 * mm.val + r.val, by omega⟩) ?_
  rw [Shape.rowMajor_val_four, Shape.rowMajor_val_two]
  show h.val * 768 + (48 * i.val + 3 * mm.val + r.val) = ((h.val * 16 + i.val) * 16 + mm.val) * 3 + r.val
  omega

/-- Entry `48·i + 16·r + mm` of the second-layer bias as handed over is entry `48·i + 3·mm + r` of the argument. -/
theorem V_b2p (c : Dev nD) (i : Fin 16) (r : Fin 3) (mm : Fin 16) :
    (V m c main_v7 : S768.Idx → EReal) (ix1 ⟨48 * i.val + 16 * r.val + mm.val, by omega⟩)
      = (m ((c : Thread nD τ).loc main_arg7) : S768.Idx → EReal) (ix1 ⟨48 * i.val + 3 * mm.val + r.val, by omega⟩) := by
  have e : @Eq (FVec Ideal S768 .f32) (V m c main_v7)
      (shapeCast S768 (transpose S16x3x16 [0, 2, 1]
        (shapeCast S16x16x3 (m ((c : Thread nD τ).loc main_arg7) : FVec Ideal S768 .f32) Facts₀.shapeCasts_S768_S16x16x3)
        Facts₀.transposes_S16x16x3_S16x3x16_0_2_1) Facts₀.shapeCasts_S16x3x16_S768) := by
    dsimp only [Gen.V]
    simp only [Gen.hostOps0, Gen.hostOps0_1, List.flatten_cons, List.flatten_nil, List.append_nil, List.cons_append, List.nil_append]
    after_results
    rfl
  refine (congrFun e _).trans ?_
  -- entry 48·i + 16·r + mm is position (i, r, mm) of the 16 × 3 × 16 array
  refine (shapeCast_apply _ _ _ (ix3 i r mm) ?_).trans ?_
  · rw [Shape.rowMajor_val_three, Shape.rowMajor_val_one]
    show (i.val * 3 + r.val) * 16 + mm.val = 48 * i.val + 16 * r.val + mm.val
    omega
  -- the exchange of the last two axes reads position (i, mm, r) of the 16 × 16 × 3 array
  refine (transpose_apply _ _ _ _ (ix3 i mm r) ?_).trans ?_
  · intro b
    match b with
    | ⟨0, _⟩ => rfl
    | ⟨1, _⟩ => rfl
    | ⟨2, _⟩ => rfl
  -- which is entry 48·i + 3·mm + r
  refine shapeCast_apply _ _ _ (ix1 ⟨48 * i.val + 3 * mm.val + r.val, by omega⟩) ?_
  rw [Shape.rowMajor_val_three, Shape.rowMajor_val_one]
  show 48 * i.val + 3 * mm.val + r.val = (i.val * 16 + mm.val) * 3 + r.val
  omega

/-- Normalising an index word in `[-10000, 10000)` (adding 10000 to a negative one) lands in `[0, 9999]`. -/
theorem wrap_in_range (u : BitVec 32) (h1 : -10000 ≤ u.toInt) (h2 : u.toInt < 10000) :
    IntOp.cmpi .sge (Scalar.select (IntOp.cmpi .slt u 0#32) (IntOp.addi u 10000#32) u) 0#32 = 1#1
      ∧ IntOp.cmpi .sle (Scalar.select (IntOp.cmpi .slt u 0#32) (IntOp.addi u 10000#32) u) 9999#32 = 1#1 := by
  have h0 : (0#32 : BitVec 32).toInt = 0 := by decide
  have h9 : (9999#32 : BitVec 32).toInt = 9999 := by decide
  have hk : (10000#32 : BitVec 32).toInt = 10000 := by decide
  by_cases hneg : u.toInt < 0
  · have hc : IntOp.cmpi .slt u 0#32 = 1#1 := IntOp.cmpi_slt.2 (by rw [h0]; exact hneg)
    rw [hc, ValueIdx.select_one]
    have ha : (IntOp.addi u 10000#32).toInt = u.toInt + 10000 := by
      show (u + 10000#32).toInt = _
      rw [BitVec.toInt_add, hk]
      exact Int.bmod_eq_of_le_mul_two (by omega) (by omega)
    constructor
    · rw [IntOp.cmpi_sge, h0, ha]; omega
    · rw [IntOp.cmpi_sle, h9, ha]; omega
  · have hc : ¬ IntOp.cmpi .slt u 0#32 = 1#1 := fun h => hneg (by have := IntOp.cmpi_slt.1 h; rw [h0] at this; exact this)
    have hs : Scalar.select (IntOp.cmpi .slt u 0#32) (IntOp.addi u 10000#32) u = u := if_neg hc
    rw [hs]
    constructor
    · rw [IntOp.cmpi_sge, h0]; omega
    · rw [IntOp.cmpi_sle, h9]; omega

/-- A select whose condition is the bit 1 is its first operand. -/
theorem select_of_one {α : Type} (b : BitVec 1) (x y : α) (h : b = 1#1) : Scalar.select b x y = x := by
  rw [h]; exact ValueIdx.select_one x y

/-- Where every index is in `[-10000, 10000)`, the gathered features handed over are the gather at the normalised index:
    no row is replaced by the fill value. -/
theorem V_fe (c : Dev nD)
    (hU : ∀ e : Fin 320000, -10000 ≤ ((m ((c : Thread nD τ).loc main_arg0) : S320000.Idx → BitVec 32) (ix1 e)).toInt
      ∧ ((m ((c : Thread nD τ).loc main_arg0) : S320000.Idx → BitVec 32) (ix1 e)).toInt < 10000) :
    (V m c main_v0 : S320000x16x3.Idx → EReal) = gathered m c := by
  have e : @Eq (FVec Ideal S320000x16x3 .f32) (V m c main_v0)
      (select (broadcastInDim S320000x16x3 ![0] Facts₀.bcast_S320000_S320000x16x3_0
          (Host.reduce IntOp.andi
            (andi (cmpi .sge (wrapped m c) (broadcastInDim S320000x1 ![] Facts₀.bcast_S_S320000x1 (constantI S_ 32 0#32)))
                  (cmpi .sle (wrapped m c) (broadcastInDim S320000x1 ![0, 1] Facts₀.bcast_S1x1_S320000x1_0_1
                      (broadcastInDim S1x1 ![1] Facts₀.bcast_S1_S1x1_1 (constantI S1 32 9999#32)))))
            (constantI S_ 1 1#1) Facts₀.reducesTo_S320000x1_S320000_d1 Facts₀.h_S_))
        (gathered m c)
        (broadcastInDim S320000x16x3 ![] Facts₀.bcast_S_S320000x16x3 (constant (F := Ideal) S_ .f32 0x7FC00000#32))) := by
    dsimp only [Gen.V]
    simp only [Gen.hostOps0, Gen.hostOps0_1, List.flatten_cons, List.flatten_nil, List.append_nil, List.cons_append, List.nil_append]
    after_results_simp
    have a0 : ∀ (p : main_arg0.ty = (⟨S320000, .i32⟩ : BufTy)) q r (v : main_arg0.ty.Contents (Elt Ideal)),
        (TRef.of main_arg0 p q r).ofBuf v = v := fun _ _ _ _ => rfl
    have a3 : ∀ (p : main_arg3.ty = (⟨S10000x16x3, .f32⟩ : BufTy)) q r (v : main_arg3.ty.Contents (Elt Ideal)),
        (TRef.of main_arg3 p q r).ofBuf v = v := fun _ _ _ _ => rfl
    have y0 : ∀ (p : main_v0.ty = (⟨S320000x16x3, .f32⟩ : BufTy)) q r (v : (⟨S320000x16x3, .f32⟩ : BufTy).Contents (Elt Ideal)),
        (TRef.of main_v0 p q r).toBuf v = v := fun _ _ _ _ => rfl
    simp only [TRef.ofBuf_toBuf, a0, a3, y0]
  -- the normalised index of every edge is in range
  have hW (k : S320000x1.Idx) :
      IntOp.cmpi .sge (wrapped m c k) 0#32 = 1#1 ∧ IntOp.cmpi .sle (wrapped m c k) 9999#32 = 1#1 := by
    have hk : wrapped m c k = _ := broadcastInDim_apply _ _ _ k (ix1 (k 0 : Fin 320000)) (fun a => match a with
      | ⟨0, _⟩ => by
        show (k 0).val = if (320000 : ℕ) = 1 then 0 else (k 0).val
        exact (if_neg (by decide)).symm)
    rw [hk]
    exact wrap_in_range _ (hU (k 0)).1 (hU (k 0)).2
  refine e.trans ?_
  funext I
  -- the mask at an entry of edge `I 0` is the conjunction, over that edge's one normalised index, of the two range tests
  refine (ValueIdx.select_apply _ _ _ I).trans ?_
  refine select_of_one _ _ _ ?_
  refine (broadcastInDim_apply _ _ _ I (ix1 (I 0 : Fin 320000)) (fun a => match a with
    | ⟨0, _⟩ => by
      show (I 0).val = if (320000 : ℕ) = 1 then 0 else (I 0).val
      exact (if_neg (by decide)).symm)).trans ?_
  refine Host.reduce_andi_of_all _ _ _ _ _ rfl (fun k _ => ?_)
  exact IntOp.andi_eq_one.2 (hW k)

end Cert.KernelIdeal.HostSide

end
-- ==== Proof.KernelValue.lean ====
/-
  WHAT THE KERNEL LEAVES IN ITS RESULT ARRAY: `EdgeConv.result` of the argument arrays, the source features being the rows
  gathered at the normalised index.

  The pallas call runs over 800 grid points; point `t` is handed rows `400·t … 400·t + 399` of the edge features, of the
  gathered source features and of the basis, and the whole of the weights and biases, and writes back rows
  `400·t … 400·t + 399` of the result. Row `p` of what it writes is, by the body's value at an index (`Payload.pay_apply`), the
  edge convolution at edge `400·t + p`; the 800 blocks tile the 320000 edges, so the array ends as the edge convolution of the
  arguments (`final`), and the arguments end unchanged (`run`). The index array is assumed in `[-10000, 10000)`: that is where
  the gathered features the call is handed are the gather itself (`HostSide.V_fe`).
-/
import proofs.«422306_j18167711662487_3_alg».proof.Proof.Gen.KernelIdeal.Value
import proofs.«422306_j18167711662487_3_alg».proof.Proof.Payload
import proofs.«422306_j18167711662487_3_alg».proof.Proof.HostSide
import proofs.«422306_j18167711662487_3_alg».proof.Proof.EdgeConv
import Idealize.ShloMosaic.Lib.Pipeline.Value
import Idealize.ShloMosaic.Lib.ValueIdx

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The index array's entries, read signed, are in `[-10000, 10000)` on core `c`. -/
def InRange (c : Dev nD) : Prop :=
  ∀ e : Fin 320000, -10000 ≤ ((m ((c : Thread nD τ).loc main_arg0) : S320000.Idx → BitVec 32) (ix1 e)).toInt
    ∧ ((m ((c : Thread nD τ).loc main_arg0) : S320000.Idx → BitVec 32) (ix1 e)).toInt < 10000

/-- The result array as the call leaves it: the edge convolution of the arguments. -/
abbrev G (c : Dev nD) : S320000x16x3.Idx → EReal :=
  Cert.EdgeConv.result (m ((c : Thread nD τ).loc main_arg2)) (m ((c : Thread nD τ).loc main_arg4)) (m ((c : Thread nD τ).loc main_arg5)) (m ((c : Thread nD τ).loc main_arg6)) (m ((c : Thread nD τ).loc main_arg7)) (HostSide.gathered m c) (m ((c : Thread nD τ).loc main_arg1))

/-! ## The windows' index maps, decided over the 800 points -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The edge features', gathered features', basis' and result's block at point `t` is block `t` along the edge axis. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, win0_7.index t (0 : Fin 3) = t.val ∧ win0_7.index t (1 : Fin 3) = 0 ∧ win0_7.index t (2 : Fin 3) = 0)
/-- The weights' and biases' block at every point is the whole array. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 1) = 0 :=
  (by decide +kernel : ∀ t : Fin grid0.N, win0_4.index t (0 : Fin 1) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 1) = 0 :=
  (by decide +kernel : ∀ t : Fin grid0.N, win0_6.index t (0 : Fin 1) = 0)

theorem pt_lt (t : Fin cfg0.N) : t.val < 800 := lt_of_lt_of_eq t.isLt N_0

/-! ## Each window's block at a point, read at an index -/

/-- Row `p` of the edge features' block at point `t` is row `400·t + p` of the argument. -/
theorem read_ef (c : Dev nD) (t : Fin cfg0.N) (p : Fin 400) (x : Fin 32) (e : Fin 320000) (he : e.val = 400 * t.val + p.val) :
    iblk m c 0 t (ix2 p x) = (m ((c : Thread nD τ).loc main_arg2) : S320000x32.Idx → EReal) (ix2 e x) := by
  show V m c main_arg2 (((cfg0.win 0).blk t).view.emb (ix2 p x)) = _
  rw [V_main_arg2]
  refine congrArg (m ((c : Thread nD τ).loc main_arg2)) (funext fun a => Fin.ext ?_)
  obtain ⟨h0, h1⟩ := idx0 t
  match a with
  | ⟨0, _⟩ => show win0_0.index t (0 : Fin 2) * 400 + 1 * p.val = e.val; omega
  | ⟨1, _⟩ => show win0_0.index t (1 : Fin 2) * 32 + 1 * x.val = x.val; omega

/-- Row `p` of the basis' block at point `t` is row `400·t + p` of the argument. -/
theorem read_bs (c : Dev nD) (t : Fin cfg0.N) (p : Fin 400) (d' : Fin 3) (k : Fin 9) (e : Fin 320000) (he : e.val = 400 * t.val + p.val) :
    iblk m c 2 t (ix3 p d' k) = (m ((c : Thread nD τ).loc main_arg1) : S320000x3x9.Idx → EReal) (ix3 e d' k) := by
  show V m c main_arg1 (((cfg0.win 2).blk t).view.emb (ix3 p d' k)) = _
  rw [V_main_arg1]
  refine congrArg (m ((c : Thread nD τ).loc main_arg1)) (funext fun a => Fin.ext ?_)
  obtain ⟨h0, h1, h2⟩ := idx2 t
  match a with
  | ⟨0, _⟩ => show win0_2.index t (0 : Fin 3) * 400 + 1 * p.val = e.val; omega
  | ⟨1, _⟩ => show win0_2.index t (1 : Fin 3) * 3 + 1 * d'.val = d'.val; omega
  | ⟨2, _⟩ => show win0_2.index t (2 : Fin 3) * 9 + 1 * k.val = k.val; omega

/-- Row `p` of the gathered features' block at point `t` is row `400·t + p` of the gather, the indices being in range. -/
theorem read_fe (c : Dev nD) (hU : InRange m c) (t : Fin cfg0.N) (p : Fin 400) (mm : Fin 16) (d' : Fin 3) (e : Fin 320000)
    (he : e.val = 400 * t.val + p.val) :
    iblk m c 1 t (ix3 p mm d') = HostSide.gathered m c (ix3 e mm d') := by
  show (V m c main_v0 : S320000x16x3.Idx → EReal) (((cfg0.win 1).blk t).view.emb (ix3 p mm d')) = _
  rw [HostSide.V_fe m c hU]
  refine congrArg (HostSide.gathered m c) (funext fun a => Fin.ext ?_)
  obtain ⟨h0, h1, h2⟩ := idx1 t
  match a with
  | ⟨0, _⟩ => show win0_1.index t (0 : Fin 3) * 400 + 1 * p.val = e.val; omega
  | ⟨1, _⟩ => show win0_1.index t (1 : Fin 3) * 16 + 1 * mm.val = mm.val; omega
  | ⟨2, _⟩ => show win0_1.index t (2 : Fin 3) * 3 + 1 * d'.val = d'.val; omega

/-- The first-layer weights' block at every point is the argument. -/
theorem read_W1 (c : Dev nD) (t : Fin cfg0.N) (x : Fin 32) (h : Fin 128) :
    iblk m c 3 t (ix2 x h) = (m ((c : Thread nD τ).loc main_arg4) : S32x128.Idx → EReal) (ix2 x h) := by
  have hemb : ((cfg0.win 3).blk t).view.emb (ix2 x h) = ix2 x h := by
    funext a; apply Fin.ext
    obtain ⟨h0, h1⟩ := idx3 t
    match a with
    | ⟨0, _⟩ => show win0_3.index t (0 : Fin 2) * 32 + 1 * x.val = x.val; omega
    | ⟨1, _⟩ => show win0_3.index t (1 : Fin 2) * 128 + 1 * h.val = h.val; omega
  show (V m c main_v1 : S32x128.Idx → EReal) (((cfg0.win 3).blk t).view.emb (ix2 x h)) = _
  rw [hemb]
  exact HostSide.V_W1 m c x h

/-- The first-layer bias' block at every point is the argument. -/
theorem read_b1 (c : Dev nD) (t : Fin cfg0.N) (h : Fin 128) :
    iblk m c 4 t (ix1 h) = (m ((c : Thread nD τ).loc main_arg5) : S128.Idx → EReal) (ix1 h) := by
  show V m c main_arg5 (((cfg0.win 4).blk t).view.emb (ix1 h)) = _
  rw [V_main_arg5]
  refine congrArg (m ((c : Thread nD τ).loc main_arg5)) (funext fun a => Fin.ext ?_)
  have h0 := idx4 t
  match a with
  | ⟨0, _⟩ => show win0_4.index t (0 : Fin 1) * 128 + 1 * h.val = h.val; omega

/-- Column `48·i + 16·r + mm` of the second-layer weights' block at every point is column `48·i + 3·mm + r` of the argument. -/
theorem read_W2 (c : Dev nD) (t : Fin cfg0.N) (h : Fin 128) (i : Fin 16) (r : Fin 3) (mm : Fin 16) :
    iblk m c 5 t (ix2 h ⟨48 * i.val + 16 * r.val + mm.val, by omega⟩)
      = (m ((c : Thread nD τ).loc main_arg6) : S128x768.Idx → EReal) (ix2 h ⟨48 * i.val + 3 * mm.val + r.val, by omega⟩) := by
  have hemb : ∀ q : Fin 768, ((cfg0.win 5).blk t).view.emb (ix2 h q) = ix2 h q := fun q => by
    funext a; apply Fin.ext
    obtain ⟨h0, h1⟩ := idx5 t
    match a with
    | ⟨0, _⟩ => show win0_5.index t (0 : Fin 2) * 128 + 1 * h.val = h.val; omega
    | ⟨1, _⟩ => show win0_5.index t (1 : Fin 2) * 768 + 1 * q.val = q.val; omega
  show (V m c main_v8 : S128x768.Idx → EReal) (((cfg0.win 5).blk t).view.emb (ix2 h ⟨48 * i.val + 16 * r.val + mm.val, by omega⟩)) = _
  rw [hemb]
  exact HostSide.V_W2p m c h i r mm

/-- Entry `48·i + 16·r + mm` of the second-layer bias' block at every point is entry `48·i + 3·mm + r` of the argument. -/
theorem read_b2 (c : Dev nD) (t : Fin cfg0.N) (i : Fin 16) (r : Fin 3) (mm : Fin 16) :
    iblk m c 6 t (ix1 ⟨48 * i.val + 16 * r.val + mm.val, by omega⟩)
      = (m ((c : Thread nD τ).loc main_arg7) : S768.Idx → EReal) (ix1 ⟨48 * i.val + 3 * mm.val + r.val, by omega⟩) := by
  have hemb : ∀ q : Fin 768, ((cfg0.win 6).blk t).view.emb (ix1 q) = ix1 q := fun q => by
    funext a; apply Fin.ext
    have h0 := idx6 t
    match a with
    | ⟨0, _⟩ => show win0_6.index t (0 : Fin 1) * 768 + 1 * q.val = q.val; omega
  show (V m c main_v7 : S768.Idx → EReal) (((cfg0.win 6).blk t).view.emb (ix1 ⟨48 * i.val + 16 * r.val + mm.val, by omega⟩)) = _
  rw [hemb]
  exact HostSide.V_b2p m c i r mm

/-! ## What point `t` writes back -/

/-- The body's result at index `y` of point `t`'s block is the edge convolution at the array index under it. -/
theorem block_point (c : Dev nD) (hU : InRange m c) (t : Fin cfg0.N) (y : S400x16x3.Idx) :
    k0_pay1 (F := Ideal) (iblk m c 0 t) (iblk m c 3 t) (iblk m c 4 t) (iblk m c 5 t) (iblk m c 6 t) (iblk m c 1 t) (iblk m c 2 t) y
      = G m c (((cfg0.win 7).blk t).view.emb y) := by
  obtain ⟨p, i, d, rfl⟩ : ∃ (p : Fin 400) (i : Fin 16) (d : Fin 3), y = ix3 p i d := ⟨_, _, _, eq_ix3 y⟩
  have ht := pt_lt t
  have hemb : ((cfg0.win 7).blk t).view.emb (ix3 p i d) = ix3 (⟨400 * t.val + p.val, by omega⟩ : Fin 320000) i d := by
    funext a; apply Fin.ext
    obtain ⟨h0, h1, h2⟩ := idx7 t
    match a with
    | ⟨0, _⟩ => show win0_7.index t (0 : Fin 3) * 400 + 1 * p.val = 400 * t.val + p.val; omega
    | ⟨1, _⟩ => show win0_7.index t (1 : Fin 3) * 16 + 1 * i.val = i.val; omega
    | ⟨2, _⟩ => show win0_7.index t (2 : Fin 3) * 3 + 1 * d.val = d.val; omega
  rw [hemb]
  show _ = Cert.EdgeConv.mixed (m ((c : Thread nD τ).loc main_arg2)) (m ((c : Thread nD τ).loc main_arg4)) (m ((c : Thread nD τ).loc main_arg5)) (m ((c : Thread nD τ).loc main_arg6)) (m ((c : Thread nD τ).loc main_arg7)) (HostSide.gathered m c) (m ((c : Thread nD τ).loc main_arg1))
    ⟨400 * t.val + p.val, by omega⟩ i d
  exact Payload.pay_apply _ _ _ _ _ _ _ _ _ _ _ _ _ _ ⟨400 * t.val + p.val, by omega⟩ p
    (fun x => read_ef m c t p x _ rfl) (fun x h => read_W1 m c t x h) (fun h => read_b1 m c t h)
    (fun h i r mm => read_W2 m c t h i r mm) (fun i r mm => read_b2 m c t i r mm)
    (fun mm d' => read_fe m c hU t p mm d' _ rfl) (fun d' k => read_bs m c t p d' k _ rfl) i d

/-- WHAT POINT `t` WRITES BACK is block `t` of the edge convolution of the arguments. -/
theorem flushed7_eq (c : Dev nD) (hU : InRange m c) (t : Fin cfg0.N) :
    (dats m 0 c).flushed 7 t = ((cfg0.win 7).blk t).view.read (Elt Ideal) (G m c) := by
  rw [Value.flushed7]
  unfold out0_7
  rw [View.canon_unit_zero hz3]
  simp only [View.ld_unit_zero (S := S400x32) hz2, View.ld_unit_zero (S := S32x128) hz2, View.ld_unit_zero (S := S128) hz1,
    View.ld_unit_zero (S := S128x768) hz2, View.ld_unit_zero (S := S768) hz1, View.ld_unit_zero (S := S400x16x3) hz3,
    View.ld_unit_zero (S := S400x3x9) hz3]
  funext y
  exact block_point m c hU t y

/-! ## The blocks tile the array -/

/-- An index of the array is in point `t`'s block iff each coordinate is in the block's range on its axis. -/
theorem mem_blk7 (t : Fin cfg0.N) (i : S320000x16x3.Idx) :
    i ∈ ((cfg0.win 7).blk t).view.set ↔ ∀ a : Fin 3, win0_7.index t a * S400x16x3.size a ≤ (i a).val ∧ (i a).val < win0_7.index t a * S400x16x3.size a + S400x16x3.size a := by
  show i ∈ ((View.whole main_v9).slice (win0_7.rect t)).set ↔ _
  rw [View.set_slice_whole, Rect.mem_set_unit]
  exact Iff.rfl

/-- Edge `e` is in the block of point `e / 400`. -/
theorem cover (i : S320000x16x3.Idx) : ∃ t : Fin cfg0.N, (cfg0.win 7).flush t = true ∧ i ∈ ((cfg0.win 7).blk t).view.set := by
  have hi0 : (i 0).val < 320000 := (i 0).isLt
  have hi1 : (i 1).val < 16 := (i 1).isLt
  have hi2 : (i 2).val < 3 := (i 2).isLt
  have hN : cfg0.N = 800 := N_0
  obtain ⟨t, htv⟩ : ∃ t : Fin cfg0.N, t.val = (i 0).val / 400 := ⟨⟨(i 0).val / 400, by rw [hN]; omega⟩, rfl⟩
  refine ⟨t, flush0_7 t, ?_⟩
  rw [mem_blk7]
  obtain ⟨h0, h1, h2⟩ := idx7 t
  intro a
  match a with
  | ⟨0, _⟩ => show win0_7.index t (0 : Fin 3) * 400 ≤ (i 0).val ∧ (i 0).val < win0_7.index t (0 : Fin 3) * 400 + 400; omega
  | ⟨1, _⟩ => show win0_7.index t (1 : Fin 3) * 16 ≤ (i 1).val ∧ (i 1).val < win0_7.index t (1 : Fin 3) * 16 + 16; omega
  | ⟨2, _⟩ => show win0_7.index t (2 : Fin 3) * 3 ≤ (i 2).val ∧ (i 2).val < win0_7.index t (2 : Fin 3) * 3 + 3; omega

/-- THE ARRAY after the run is the edge convolution of the arguments. -/
theorem final (c : Dev nD) (hU : InRange m c) : (dats m 0 c).arrAt 7 cfg0.N = G m c :=
  (dats m 0 c).arrAt_eq_of_cover 7 (G m c) (fun t _ => flushed7_eq m c hU t) cover

/-! ## The run, read -/

/-- The frame run re-posted: the result array at the edge convolution of the arguments, the arguments unchanged. -/
theorem run (hU : ∀ c : Dev nD, InRange m c) :
    θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c (hU c)), (h c).2⟩) (Value.run_blocks m ρ)

end Cert.KernelIdeal.KernelValue

end
-- ==== Proof.RefRead.lean ====
/-
  THE REFERENCE COMPUTES THE EDGE CONVOLUTION: its result stage, index by index, is `EdgeConv.result` of its arguments with
  the gathered source features in the features' place.
-/
import proofs.«422306_j18167711662487_3_alg».proof.Proof.Gen.ReferenceIdeal.Read
import proofs.«422306_j18167711662487_3_alg».proof.Proof.EdgeConv

noncomputable section

namespace Cert.ReferenceIdeal.RefValue

open Cert.ReferenceIdeal Cert.ReferenceIdeal.Gen Cert.ReferenceIdeal.Read
open Idealize.ShloMosaic Idealize.ShloMosaic.ValueIdx

/-! ## The radial network -/

/-- The hidden layer read at edge `e`, unit `c`: the first product plus its bias, clamped below at zero. -/
theorem hidden_at (x2 : (⟨S320000x32, .f32⟩ : BufTy).Contents (Elt Ideal)) (x4 : (⟨S32x128, .f32⟩ : BufTy).Contents (Elt Ideal))
    (x5 : (⟨S128, .f32⟩ : BufTy).Contents (Elt Ideal)) (e : Fin 320000) (c : Fin 128) :
    val_main_v4 (F := Ideal) x2 x4 x5 (ix2 e c) = Cert.EdgeConv.hidden x2 x4 x5 e c := by
  rw [val_main_v4_apply, val_main_v3_apply, val_main_v0_apply, val_main_v2_apply, val_main_v1_apply,
    val_main_call0_v0_apply, val_main_call0_cst_apply]
  have hb : idx_main_v1 (idx_main_v2 (ix2 e c)) = ix1 c := by
    funext a; match a with | ⟨0, _⟩ => rfl
  have hl : ∀ k : Fin 32, lidx_main_v0 (ix2 e c) k = ix2 e k := fun k => by
    funext a; match a with | ⟨0, _⟩ => rfl | ⟨1, _⟩ => rfl
  have hr : ∀ k : Fin 32, ridx_main_v0 (ix2 e c) k = ix2 k c := fun k => by
    funext a; match a with | ⟨0, _⟩ => rfl | ⟨1, _⟩ => rfl
  rw [hb]
  simp only [hl, hr]
  rfl

/-- The radial weights read at edge `e`, row `i`, column `k` of the `16 × 48` view: weight `48·i + k` of the network. -/
theorem radial_at (x2 : (⟨S320000x32, .f32⟩ : BufTy).Contents (Elt Ideal)) (x4 : (⟨S32x128, .f32⟩ : BufTy).Contents (Elt Ideal))
    (x5 : (⟨S128, .f32⟩ : BufTy).Contents (Elt Ideal)) (x6 : (⟨S128x768, .f32⟩ : BufTy).Contents (Elt Ideal))
    (x7 : (⟨S768, .f32⟩ : BufTy).Contents (Elt Ideal)) (e : Fin 320000) (i : Fin 16) (k : Fin 48) (q : Fin 768)
    (hq : q.val = 48 * i.val + k.val) :
    val_main_v9 (F := Ideal) x2 x4 x5 x6 x7 (ix3 e i k) = Cert.EdgeConv.radial x2 x4 x5 x6 x7 e q := by
  -- the flat position `(16·e + i)·48 + k` is row `e`, column `48·i + k` of the `320000 × 768` array
  have h9 : idx_main_v9 (ix3 e i k) = ix2 e q := by
    funext a
    match a with
    | ⟨0, _⟩ => exact Fin.ext (by show ((e.val * 16 + i.val) * 48 + k.val) / 768 = e.val; omega)
    | ⟨1, _⟩ => exact Fin.ext (by show ((e.val * 16 + i.val) * 48 + k.val) % 768 = q.val; omega)
  have hb : idx_main_v6 (idx_main_v7 (ix2 e q)) = ix1 q := by
    funext a; match a with | ⟨0, _⟩ => rfl
  have hl : ∀ c : Fin 128, lidx_main_v5 (ix2 e q) c = ix2 e c := fun c => by
    funext a; match a with | ⟨0, _⟩ => rfl | ⟨1, _⟩ => rfl
  have hr : ∀ c : Fin 128, ridx_main_v5 (ix2 e q) c = ix2 c q := fun c => by
    funext a; match a with | ⟨0, _⟩ => rfl | ⟨1, _⟩ => rfl
  rw [val_main_v9_apply, h9, val_main_v8_apply, val_main_v5_apply, val_main_v7_apply, val_main_v6_apply, hb]
  simp only [hl, hr, hidden_at]
  rfl

/-! ## The features against the basis -/

/-- The `16 × 9` product read as `48 × 3`: row `3·m + r`, column `d` is entry `(m, 3·r + d)`. -/
theorem basisProd_at (x0 : (⟨S320000, .i32⟩ : BufTy).Contents (Elt Ideal)) (x1 : (⟨S320000x3x9, .f32⟩ : BufTy).Contents (Elt Ideal))
    (x3 : (⟨S10000x16x3, .f32⟩ : BufTy).Contents (Elt Ideal)) (e : Fin 320000) (k : Fin 48) (d : Fin 3) (m : Fin 16) (p : Fin 9)
    (r : Fin 3) (hk : k.val = 3 * m.val + r.val) (hp : p.val = 3 * r.val + d.val) :
    val_main_v18 (F := Ideal) x0 x1 x3 (ix3 e k d)
      = Cert.EdgeConv.basisProd (val_main_v16 (F := Ideal) x0 x3) x1 e m p := by
  -- the flat position `(48·e + 3·m + r)·3 + d = (16·e + m)·9 + (3·r + d)`
  have h18 : idx_main_v18 (ix3 e k d) = ix3 e m p := by
    funext a
    match a with
    | ⟨0, _⟩ => exact Fin.ext (by show ((e.val * 48 + k.val) * 3 + d.val) / 144 = e.val; omega)
    | ⟨1, _⟩ => exact Fin.ext (by show ((e.val * 48 + k.val) * 3 + d.val) / 9 % 16 = m.val; omega)
    | ⟨2, _⟩ => exact Fin.ext (by show ((e.val * 48 + k.val) * 3 + d.val) % 9 = p.val; omega)
  have hl : ∀ t : Fin 3, lidx_main_v17 (ix3 e m p) t = ix3 e m t := fun t => by
    funext a; match a with | ⟨0, _⟩ => rfl | ⟨1, _⟩ => rfl | ⟨2, _⟩ => rfl
  have hr : ∀ t : Fin 3, ridx_main_v17 (ix3 e m p) t = ix3 e t p := fun t => by
    funext a; match a with | ⟨0, _⟩ => rfl | ⟨1, _⟩ => rfl | ⟨2, _⟩ => rfl
  rw [val_main_v18_apply, h18, val_main_v17_apply]
  simp only [hl, hr]
  rfl

/-! ## The result -/

/-- The reference's result is the edge convolution of its arguments, the source features being the rows the reference
    gathers (`val_main_v16`). -/
theorem stage_eq_result (x0 : (⟨S320000, .i32⟩ : BufTy).Contents (Elt Ideal)) (x1 : (⟨S320000x3x9, .f32⟩ : BufTy).Contents (Elt Ideal))
    (x2 : (⟨S320000x32, .f32⟩ : BufTy).Contents (Elt Ideal)) (x3 : (⟨S10000x16x3, .f32⟩ : BufTy).Contents (Elt Ideal))
    (x4 : (⟨S32x128, .f32⟩ : BufTy).Contents (Elt Ideal)) (x5 : (⟨S128, .f32⟩ : BufTy).Contents (Elt Ideal))
    (x6 : (⟨S128x768, .f32⟩ : BufTy).Contents (Elt Ideal)) (x7 : (⟨S768, .f32⟩ : BufTy).Contents (Elt Ideal)) :
    val_main_v19 (F := Ideal) x0 x1 x2 x3 x4 x5 x6 x7
      = Cert.EdgeConv.result x2 x4 x5 x6 x7 (val_main_v16 (F := Ideal) x0 x3) x1 := by
  funext I
  obtain ⟨e, i, d, rfl⟩ : ∃ (e : Fin 320000) (i : Fin 16) (d : Fin 3), I = ix3 e i d := ⟨_, _, _, eq_ix3 I⟩
  have hl : ∀ k : Fin 48, lidx_main_v19 (ix3 e i d) k = ix3 e i k := fun k => by
    funext a; match a with | ⟨0, _⟩ => rfl | ⟨1, _⟩ => rfl | ⟨2, _⟩ => rfl
  have hr : ∀ k : Fin 48, ridx_main_v19 (ix3 e i d) k = ix3 e k d := fun k => by
    funext a; match a with | ⟨0, _⟩ => rfl | ⟨1, _⟩ => rfl | ⟨2, _⟩ => rfl
  rw [val_main_v19_apply, Cert.EdgeConv.result_apply, Cert.EdgeConv.sum_rows_path_fastest]
  unfold Cert.EdgeConv.mixed
  refine Finset.sum_congr rfl fun m _ => Finset.sum_congr rfl fun r _ => ?_
  rw [hl, hr, radial_at x2 x4 x5 x6 x7 e i _ ⟨48 * i.val + 3 * m.val + r.val, by omega⟩ (by show 48 * i.val + 3 * m.val + r.val = 48 * i.val + (3 * m.val + r.val); omega),
    basisProd_at x0 x1 x3 e _ d m ⟨3 * r.val + d.val, by omega⟩ r rfl rfl]

end Cert.ReferenceIdeal.RefValue

end
-- ==== Proof.PreDecode.lean ====
/-
  THE INDEX RANGE, READ OFF THE PRECONDITION.

  The precondition's last conjunct is `jnp.all((U >= -10000) & (U < 10000))`: every entry of the edge-to-node index array,
  read as a signed 32-bit integer, lies in `[-10000, 10000)` — the range in which indexing an axis of extent 10000 is in
  range (a negative index counts from the end).
-/
import proofs.«422306_j18167711662487_3_alg».proof.Pre_finite_inputs
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Cert.Pre_finite_inputs

/-- Where the precondition is all ones, every index entry is in `[-10000, 10000)` as a signed integer. -/
theorem index_in_range {F : FTy → Type} [FloatOps F] [Cert.Pre_finite_inputs.Facts]
    (U : IVec S320000 32) (a1 : FVec F S320000x3x9 .f32) (a2 : FVec F S320000x32 .f32) (a3 : FVec F S10000x16x3 .f32)
    (a4 : FVec F S32x128 .f32) (a5 : FVec F S128 .f32) (a6 : FVec F S128x768 .f32) (a7 : FVec F S768 .f32)
    (h : fn (F := F) U a1 a2 a3 a4 a5 a6 a7 = fun _ => 1#1) (e : Fin 320000) :
    -10000 ≤ (U (ix1 e)).toInt ∧ (U (ix1 e)).toInt < 10000 := by
  -- the result has one index
  haveI : Subsingleton S_.Idx := ⟨fun a b => funext fun d => d.elim0⟩
  -- the whole predicate is its float conjuncts (never evaluated) AND the index conjunct
  have h0 : fn_part2 (F := F) U _ ix0 = 1#1 := congrFun h ix0
  dsimp only [fn_part2] at h0
  have h1 : IntOp.andi _ _ = 1#1 := h0
  -- the index conjunct is a reduction by AND over all entries: each entry's test is 1
  have h2 := Host.reduce_andi_all _ _ _ _ _ (IntOp.andi_eq_one.1 h1).2 (ix1 e)
  have h3 : IntOp.andi _ _ = 1#1 := h2
  obtain ⟨hge, hlt⟩ := IntOp.andi_eq_one.1 h3
  -- a broadcast constant read at an index is the constant
  have hge' : IntOp.cmpi .sge (U (ix1 e)) (4294957296#32) = 1#1 := hge
  have hlt' : IntOp.cmpi .slt (U (ix1 e)) (10000#32) = 1#1 := hlt
  have hlo : (4294957296#32 : BitVec 32).toInt = -10000 := by decide
  have hhi : (10000#32 : BitVec 32).toInt = 10000 := by decide
  have a := IntOp.cmpi_sge.1 hge'
  have b := IntOp.cmpi_slt.1 hlt'
  rw [hlo] at a
  rw [hhi] at b
  exact ⟨a, b⟩

end Cert.PreDecode

end
-- ==== Proof.lean ====
/-
  The proof of `Cert.Claim`: an equivariant edge convolution, a fused kernel against its plain reference.

  Both programs compute, per edge `e`, `out[e] = RW[e] · T[e]`, where `RW[e] : 16 × 48` is a two-layer network's output on the
  edge's invariant features and `T[e] : 48 × 3` is the 16 × 9 product of the edge's source-node features `f[U[e]]` with the edge's
  basis, its three column groups re-read as rows (`EdgeConv.mixed`). The reference keeps the 48 rows in the order
  `3·m + r` (a reshape of the 16 × 9 product); the kernel stacks the column groups, which orders the rows `16·r + m`, and is handed
  the second layer's weights and bias with their columns permuted to match: summing the 48 products in one order or the other is
  the same finite sum over the extended reals, so no finiteness is used. The kernel works on 400 edges per grid point, 800 points.

  The source-node rows are gathered before the kernel, by `f[U]` in the reference and by `jnp.take(f, U)` for the kernel: both
  count a negative index from the end, but `jnp.take` replaces a row whose index is then still outside `[0, 9999]` by a fill
  value where `f[U]` clamps. The precondition therefore asks, beside finite float inputs, that every index lie in
  `[-10000, 10000)` — the range in which the reference's own indexing is in range; there no row is replaced, nothing is
  clamped, and the two gathers are the same array.

  Frames: the kernel's two programs have their frame certificates generated whole; the reference's frame is its generated run with
  the result dropped. `preserves` is `True`: the idealization rewrote nothing.
-/
import proofs.«422306_j18167711662487_3_alg».proof.Defs
import proofs.«422306_j18167711662487_3_alg».proof.Proof.Gen.Kernel
import proofs.«422306_j18167711662487_3_alg».proof.Proof.Gen.Kernel.Skeleton
import proofs.«422306_j18167711662487_3_alg».proof.Proof.Gen.Kernel.Launch
import proofs.«422306_j18167711662487_3_alg».proof.Proof.Gen.Kernel.Points
import proofs.«422306_j18167711662487_3_alg».proof.Proof.Gen.Kernel.Frame
import proofs.«422306_j18167711662487_3_alg».proof.Proof.Gen.KernelIdeal
import proofs.«422306_j18167711662487_3_alg».proof.Proof.Gen.KernelIdeal.Skeleton
import proofs.«422306_j18167711662487_3_alg».proof.Proof.Gen.KernelIdeal.Launch
import proofs.«422306_j18167711662487_3_alg».proof.Proof.Gen.KernelIdeal.Points
import proofs.«422306_j18167711662487_3_alg».proof.Proof.Gen.KernelIdeal.Frame
import proofs.«422306_j18167711662487_3_alg».proof.Proof.Gen.ReferenceIdeal
import proofs.«422306_j18167711662487_3_alg».proof.Proof.Gen.Pre_finite_inputs
import proofs.«422306_j18167711662487_3_alg».proof.Proof.Gen.KernelIdeal.Value
import proofs.«422306_j18167711662487_3_alg».proof.Proof.Gen.ReferenceIdeal.Run
import proofs.«422306_j18167711662487_3_alg».proof.Proof.Gen.ReferenceIdeal.Read
import proofs.«422306_j18167711662487_3_alg».proof.Proof.KernelValue
import proofs.«422306_j18167711662487_3_alg».proof.Proof.RefRead
import proofs.«422306_j18167711662487_3_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition every index is in `[-10000, 10000)`, on every core. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.KernelValue.InRange m c :=
  fun e => Cert.PreDecode.index_in_range _ _ _ _ _ _ _ _ (h c) e

/-- From memories agreeing on the arguments, the kernel's result array and the reference's end as the same function of the
    arguments: the edge convolution, the source features being the rows gathered at the normalised index. -/
theorem algebraic : Cert.algebraic_KernelIdeal_ReferenceIdeal := by
  intro m ρ m' ρ' hpre hagree
  refine ⟨fun c => Cert.KernelIdeal.KernelValue.G m c,
    Cert.KernelIdeal.KernelValue.run m ρ (inRange_of_pre m hpre), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  refine (Cert.ReferenceIdeal.Read.val_main_v19_eq _ _ _ _ _ _ _ _).trans ?_
  refine (Cert.ReferenceIdeal.RefValue.stage_eq_result _ _ _ _ _ _ _ _).trans ?_
  rw [a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
